-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x36x1024 : Shape := ⟨3, ![128, 36, 1024]⟩
abbrev S128x50x1024 : Shape := ⟨3, ![128, 50, 1024]⟩
abbrev S128 : Shape := ⟨1, ![128]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x36x1024 : S_.BroadcastsInDim S128x36x1024 (![] : Fin 0 → Fin S128x36x1024.rank)
  reducesTo_S128x36x1024_S_d0_1_2 : S128x36x1024.ReducesTo [0, 1, 2] S_
  bcast_S_S128x50x1024 : S_.BroadcastsInDim S128x50x1024 (![] : Fin 0 → Fin S128x50x1024.rank)
  reducesTo_S128x50x1024_S_d0_1_2 : S128x50x1024.ReducesTo [0, 1, 2] S_

variable [Facts]

def fn_part1 {F : FTy → Type} [FloatOps F] (main_v13 : IVec S_ 1) (main_v16 : IVec S128x50x1024 1) : IVec S_ 1 :=
  let main_c_5 : IVec S_ 1 := constantI S_ 1 1#1
  let main_v17 : IVec S_ 1 := (fun x v => Host.reduce IntOp.andi x v reducesTo_S128x50x1024_S_d0_1_2 h_S_) main_v16 main_c_5
  let main_v18 : IVec S_ 1 := andi main_v13 main_v17
  main_v18

def fn {F : FTy → Type} [FloatOps F] (main_arg0 : FVec F S128x1024 .f32) (main_arg1 : FVec F S128x36x1024 .f32) (main_arg2 : FVec F S128x1024 .f32) (main_arg3 : FVec F S128x50x1024 .f32) (main_arg4 : IVec S128 32) (main_arg5 : IVec S128 32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x36x1024 .f32 := Host.absf main_arg1
  let main_cst_0 : FVec F S_ .f32 := constant S_ .f32 0x7F800000#32
  let main_v5 : FVec F S128x36x1024 .f32 := broadcastInDim S128x36x1024 ![] bcast_S_S128x36x1024 main_cst_0
  let main_v6 : IVec S128x36x1024 1 := cmpf .olt main_v4 main_v5
  let main_c_1 : IVec S_ 1 := constantI S_ 1 1#1
  let main_v7 : IVec S_ 1 := (fun x v => Host.reduce IntOp.andi x v reducesTo_S128x36x1024_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x50x1024 .f32 := Host.absf main_arg3
  let main_cst_4 : FVec F S_ .f32 := constant S_ .f32 0x7F800000#32
  let main_v15 : FVec F S128x50x1024 .f32 := broadcastInDim S128x50x1024 ![] bcast_S_S128x50x1024 main_cst_4
  let main_v16 : IVec S128x50x1024 1 := cmpf .olt main_v14 main_v15
  fn_part1 (F := F) main_v13 main_v16
-- ==== Kernel.lean ====
abbrev S128x1024 : Shape := ⟨2, ![128, 1024]⟩
abbrev S128x36x1024 : Shape := ⟨3, ![128, 36, 1024]⟩
abbrev S128x50x1024 : Shape := ⟨3, ![128, 50, 1024]⟩
abbrev S128 : Shape := ⟨1, ![128]⟩
abbrev S_ : Shape := ⟨0, ![]⟩
abbrev S37 : Shape := ⟨1, ![37]⟩
abbrev S1x37 : Shape := ⟨2, ![1, 37]⟩
abbrev S128x1 : Shape := ⟨2, ![128, 1]⟩
abbrev S128x37 : Shape := ⟨2, ![128, 37]⟩
abbrev S51 : Shape := ⟨1, ![51]⟩
abbrev S1x51 : Shape := ⟨2, ![1, 51]⟩
abbrev S128x51 : Shape := ⟨2, ![128, 51]⟩
abbrev S128x128 : Shape := ⟨2, ![128, 128]⟩
abbrev S16x1024 : Shape := ⟨2, ![16, 1024]⟩
abbrev S16x36x1024 : Shape := ⟨3, ![16, 36, 1024]⟩
abbrev S16x37 : Shape := ⟨2, ![16, 37]⟩
abbrev S16x128 : Shape := ⟨2, ![16, 128]⟩
abbrev S16x1x1024 : Shape := ⟨3, ![16, 1, 1024]⟩
abbrev S16x37x1024 : Shape := ⟨3, ![16, 37, 1024]⟩
abbrev S16x37x1 : Shape := ⟨3, ![16, 37, 1]⟩
abbrev S128x1x1024 : Shape := ⟨3, ![128, 1, 1024]⟩
abbrev S128x51x1024 : Shape := ⟨3, ![128, 51, 1024]⟩
abbrev S128x51x1 : Shape := ⟨3, ![128, 51, 1]⟩
abbrev S592x1024 : Shape := ⟨2, ![592, 1024]⟩
abbrev S16x51x1024 : Shape := ⟨3, ![16, 51, 1024]⟩
abbrev S16x51 : Shape := ⟨2, ![16, 51]⟩
abbrev S816x1024 : Shape := ⟨2, ![816, 1024]⟩
abbrev S1024x816 : Shape := ⟨2, ![1024, 816]⟩
abbrev S592x816 : Shape := ⟨2, ![592, 816]⟩
abbrev S16x37x16x51 : Shape := ⟨4, ![16, 37, 16, 51]⟩
abbrev S16x16x37x51 : Shape := ⟨4, ![16, 16, 37, 51]⟩
abbrev S16x1x37x1 : Shape := ⟨4, ![16, 1, 37, 1]⟩
abbrev S1x16x1x51 : Shape := ⟨4, ![1, 16, 1, 51]⟩
abbrev S16x16x37 : Shape := ⟨3, ![16, 16, 37]⟩
abbrev S16x16x51 : Shape := ⟨3, ![16, 16, 51]⟩
abbrev S16x16 : Shape := ⟨2, ![16, 16]⟩
abbrev S16x16x1 : Shape := ⟨3, ![16, 16, 1]⟩
abbrev S16x16x1x1 : Shape := ⟨4, ![16, 16, 1, 1]⟩
abbrev S16x16x37x1 : Shape := ⟨4, ![16, 16, 37, 1]⟩
abbrev S16x16x1x51 : Shape := ⟨4, ![16, 16, 1, 51]⟩

abbrev nBuf : Space → Nat
  | .hbm => 27
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x36x1024, .f32⟩
  | .hbm, ⟨2, _⟩ => ⟨S128x1024, .f32⟩
  | .hbm, ⟨3, _⟩ => ⟨S128x50x1024, .f32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S37, .i32⟩
  | .hbm, ⟨13, _⟩ => ⟨S1x37, .i32⟩
  | .hbm, ⟨14, _⟩ => ⟨S128x1, .i32⟩
  | .hbm, ⟨15, _⟩ => ⟨S128x37, .i32⟩
  | .hbm, ⟨16, _⟩ => ⟨S128x37, .i32⟩
  | .hbm, ⟨17, _⟩ => ⟨S128x37, .i1⟩
  | .hbm, ⟨18, _⟩ => ⟨S128x37, .f32⟩
  | .hbm, ⟨19, _⟩ => ⟨S51, .i32⟩
  | .hbm, ⟨20, _⟩ => ⟨S1x51, .i32⟩
  | .hbm, ⟨21, _⟩ => ⟨S128x1, .i32⟩
  | .hbm, ⟨22, _⟩ => ⟨S128x51, .i32⟩
  | .hbm, ⟨23, _⟩ => ⟨S128x51, .i32⟩
  | .hbm, ⟨24, _⟩ => ⟨S128x51, .i1⟩
  | .hbm, ⟨25, _⟩ => ⟨S128x51, .f32⟩
  | .hbm, ⟨26, _⟩ => ⟨S128x128, .f32⟩
  | .local _ .vmem, ⟨0, _⟩ => ⟨S16x1024, .f32⟩
  | .local _ .vmem, ⟨1, _⟩ => ⟨S16x1024, .f32⟩
  | .local _ .vmem, ⟨2, _⟩ => ⟨S16x36x1024, .f32⟩
  | .local _ .vmem, ⟨3, _⟩ => ⟨S16x36x1024, .f32⟩
  | .local _ .vmem, ⟨4, _⟩ => ⟨S128x1024, .f32⟩
  | .local _ .vmem, ⟨5, _⟩ => ⟨S128x50x1024, .f32⟩
  | .local _ .vmem, ⟨6, _⟩ => ⟨S16x37, .f32⟩
  | .local _ .vmem, ⟨7, _⟩ => ⟨S16x37, .f32⟩
  | .local _ .vmem, ⟨8, _⟩ => ⟨S128x51, .f32⟩
  | .local _ .vmem, ⟨9, _⟩ => ⟨S16x128, .f32⟩
  | .local _ .vmem, ⟨10, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x36x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x50x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x37 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x51 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128 : S_.BroadcastsInDim S128 (![] : Fin 0 → Fin S128.rank)
  bcast_S37_S1x37_1 : S37.BroadcastsInDim S1x37 (![1] : Fin 1 → Fin S1x37.rank)
  bcast_S128_S128x1_0 : S128.BroadcastsInDim S128x1 (![0] : Fin 1 → Fin S128x1.rank)
  bcast_S1x37_S128x37_0_1 : S1x37.BroadcastsInDim S128x37 (![0, 1] : Fin 2 → Fin S128x37.rank)
  bcast_S128x1_S128x37_0_1 : S128x1.BroadcastsInDim S128x37 (![0, 1] : Fin 2 → Fin S128x37.rank)
  bcast_S51_S1x51_1 : S51.BroadcastsInDim S1x51 (![1] : Fin 1 → Fin S1x51.rank)
  bcast_S1x51_S128x51_0_1 : S1x51.BroadcastsInDim S128x51 (![0, 1] : Fin 2 → Fin S128x51.rank)
  bcast_S128x1_S128x51_0_1 : S128x1.BroadcastsInDim S128x51 (![0, 1] : Fin 2 → Fin S128x51.rank)
  inb_S16x1024_S16x1024_0_0 : ∀ a, (![0, 0] : Fin 2 → Nat) a + S16x1024.size a ≤ S16x1024.size a
  h_S16x1024 : 0 < S16x1024.numel
  inb_S16x36x1024_S16x36x1024_0_0_0 : ∀ a, (![0, 0, 0] : Fin 3 → Nat) a + S16x36x1024.size a ≤ S16x36x1024.size a
  h_S16x36x1024 : 0 < S16x36x1024.numel
  shapeCasts_S16x1024_S16x1x1024 : S16x1024.ShapeCasts S16x1x1024
  concatenates_S16x1x1024_S16x36x1024_S16x37x1024_d1 : Shape.Concatenates [S16x1x1024, S16x36x1024] S16x37x1024 1
  reduces_S16x37x1024_S16x37 : S16x37x1024.Reduces [2] S16x37
  shapeCasts_S16x37_S16x37x1 : S16x37.ShapeCasts S16x37x1
  broadcasts_S16x37x1_S16x37x1024 : S16x37x1.Broadcasts S16x37x1024
  inb_S128x1024_S128x1024_0_0 : ∀ a, (![0, 0] : Fin 2 → Nat) a + S128x1024.size a ≤ S128x1024.size a
  h_S128x1024 : 0 < S128x1024.numel
  inb_S128x50x1024_S128x50x1024_0_0_0 : ∀ a, (![0, 0, 0] : Fin 3 → Nat) a + S128x50x1024.size a ≤ S128x50x1024.size a
  h_S128x50x1024 : 0 < S128x50x1024.numel
  shapeCasts_S128x1024_S128x1x1024 : S128x1024.ShapeCasts S128x1x1024
  concatenates_S128x1x1024_S128x50x1024_S128x51x1024_d1 : Shape.Concatenates [S128x1x1024, S128x50x1024] S128x51x1024 1
  reduces_S128x51x1024_S128x51 : S128x51x1024.Reduces [2] S128x51
  shapeCasts_S128x51_S128x51x1 : S128x51.ShapeCasts S128x51x1
  broadcasts_S128x51x1_S128x51x1024 : S128x51x1.Broadcasts S128x51x1024
  inb_S16x37_S16x37_0_0 : ∀ a, (![0, 0] : Fin 2 → Nat) a + S16x37.size a ≤ S16x37.size a
  h_S16x37 : 0 < S16x37.numel
  shapeCasts_S16x37_S16x37 : S16x37.ShapeCasts S16x37
  inb_S128x51_S128x51_0_0 : ∀ a, (![0, 0] : Fin 2 → Nat) a + S128x51.size a ≤ S128x51.size a
  h_S128x51 : 0 < S128x51.numel
  shapeCasts_S128x51_S128x51 : S128x51.ShapeCasts S128x51
  shapeCasts_S16x37x1024_S592x1024 : S16x37x1024.ShapeCasts S592x1024
  slices_S128x51x1024_o0_0_0_S16x51x1024 : S128x51x1024.Slices ![0, 0, 0] S16x51x1024
  slices_S128x51_o0_0_S16x51 : S128x51.Slices ![0, 0] S16x51
  shapeCasts_S16x51x1024_S816x1024 : S16x51x1024.ShapeCasts S816x1024
  transposes_S816x1024_p1_0_S1024x816 : S816x1024.Transposes [1, 0] S1024x816
  shapeCasts_S592x816_S16x37x16x51 : S592x816.ShapeCasts S16x37x16x51
  transposes_S16x37x16x51_p0_2_1_3_S16x16x37x51 : S16x37x16x51.Transposes [0, 2, 1, 3] S16x16x37x51
  shapeCasts_S16x37_S16x1x37x1 : S16x37.ShapeCasts S16x1x37x1
  shapeCasts_S16x51_S1x16x1x51 : S16x51.ShapeCasts S1x16x1x51
  broadcasts_S16x1x37x1_S16x16x37x51 : S16x1x37x1.Broadcasts S16x16x37x51
  broadcasts_S1x16x1x51_S16x16x37x51 : S1x16x1x51.Broadcasts S16x16x37x51
  reduces_S16x16x37x51_S16x16x37 : S16x16x37x51.Reduces [3] S16x16x37
  natLt_1_32 : 1 < 32
  reduces_S16x16x37x51_S16x16x51 : S16x16x37x51.Reduces [2] S16x16x51
  reduces_S16x16x37_S16x16 : S16x16x37.Reduces [2] S16x16
  shapeCasts_S16x16_S16x16x1 : S16x16.ShapeCasts S16x16x1
  broadcasts_S16x16x1_S16x16x37 : S16x16x1.Broadcasts S16x16x37
  reduces_S16x16x51_S16x16 : S16x16x51.Reduces [2] S16x16
  broadcasts_S16x16x1_S16x16x51 : S16x16x1.Broadcasts S16x16x51
  reduces_S16x16x37x51_S16x16 : S16x16x37x51.Reduces [2, 3] S16x16
  shapeCasts_S16x16_S16x16x1x1 : S16x16.ShapeCasts S16x16x1x1
  broadcasts_S16x16x1x1_S16x16x37x51 : S16x16x1x1.Broadcasts S16x16x37x51
  shapeCasts_S16x16x37_S16x16x37x1 : S16x16x37.ShapeCasts S16x16x37x1
  broadcasts_S16x16x37x1_S16x16x37x51 : S16x16x37x1.Broadcasts S16x16x37x51
  shapeCasts_S16x16x51_S16x16x1x51 : S16x16x51.ShapeCasts S16x16x1x51
  broadcasts_S16x16x1x51_S16x16x37x51 : S16x16x1x51.Broadcasts S16x16x37x51
  inb_S16x128_S16x16_0_0 : ∀ a, (![0, 0] : Fin 2 → Nat) a + S16x16.size a ≤ S16x128.size a
  h_S16x16 : 0 < S16x16.numel
  slices_S128x51x1024_o16_0_0_S16x51x1024 : S128x51x1024.Slices ![16, 0, 0] S16x51x1024
  slices_S128x51_o16_0_S16x51 : S128x51.Slices ![16, 0] S16x51
  inb_S16x128_S16x16_0_16 : ∀ a, (![0, 16] : Fin 2 → Nat) a + S16x16.size a ≤ S16x128.size a
  slices_S128x51x1024_o32_0_0_S16x51x1024 : S128x51x1024.Slices ![32, 0, 0] S16x51x1024
  slices_S128x51_o32_0_S16x51 : S128x51.Slices ![32, 0] S16x51
  inb_S16x128_S16x16_0_32 : ∀ a, (![0, 32] : Fin 2 → Nat) a + S16x16.size a ≤ S16x128.size a
  slices_S128x51x1024_o48_0_0_S16x51x1024 : S128x51x1024.Slices ![48, 0, 0] S16x51x1024
  slices_S128x51_o48_0_S16x51 : S128x51.Slices ![48, 0] S16x51
  inb_S16x128_S16x16_0_48 : ∀ a, (![0, 48] : Fin 2 → Nat) a + S16x16.size a ≤ S16x128.size a
  slices_S128x51x1024_o64_0_0_S16x51x1024 : S128x51x1024.Slices ![64, 0, 0] S16x51x1024
  slices_S128x51_o64_0_S16x51 : S128x51.Slices ![64, 0] S16x51
  inb_S16x128_S16x16_0_64 : ∀ a, (![0, 64] : Fin 2 → Nat) a + S16x16.size a ≤ S16x128.size a
  slices_S128x51x1024_o80_0_0_S16x51x1024 : S128x51x1024.Slices ![80, 0, 0] S16x51x1024
  slices_S128x51_o80_0_S16x51 : S128x51.Slices ![80, 0] S16x51
  inb_S16x128_S16x16_0_80 : ∀ a, (![0, 80] : Fin 2 → Nat) a + S16x16.size a ≤ S16x128.size a
  slices_S128x51x1024_o96_0_0_S16x51x1024 : S128x51x1024.Slices ![96, 0, 0] S16x51x1024
  slices_S128x51_o96_0_S16x51 : S128x51.Slices ![96, 0] S16x51
  inb_S16x128_S16x16_0_96 : ∀ a, (![0, 96] : Fin 2 → Nat) a + S16x16.size a ≤ S16x128.size a
  slices_S128x51x1024_o112_0_0_S16x51x1024 : S128x51x1024.Slices ![112, 0, 0] S16x51x1024
  slices_S128x51_o112_0_S16x51 : S128x51.Slices ![112, 0] S16x51
  inb_S16x128_S16x16_0_112 : ∀ a, (![0, 112] : Fin 2 → Nat) a + S16x16.size a ≤ S16x128.size a
  dot_S592x1024_S1024x816_S592x816_1_0_0_1_n_n_wf : DotDims.WF S592x1024 S1024x816 S592x816 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S128x1024.size a
  hwx0_0 : ∀ i : grid0.Coords, EltTy.bits .f32 = 32 ∨ (Rect.block (s := S128x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x36x1024.size a ≤ S128x36x1024.size a
  hwx0_1 : ∀ i : grid0.Coords, EltTy.bits .f32 = 32 ∨ (Rect.block (s := S128x36x1024) S16x36x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x50x1024.size a ≤ S128x50x1024.size a
  hwx0_3 : ∀ i : grid0.Coords, EltTy.bits .f32 = 32 ∨ (Rect.block (s := S128x50x1024) S128x50x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x37.size a ≤ S128x37.size a
  hwx0_4 : ∀ i : grid0.Coords, EltTy.bits .f32 = 32 ∨ (Rect.block (s := S128x37) S16x37.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x51.size a ≤ S128x51.size a
  hwx0_5 : ∀ i : grid0.Coords, EltTy.bits .f32 = 32 ∨ (Rect.block (s := S128x51) S128x51.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S128x128.size a
  hwx0_6 : ∀ i : grid0.Coords, EltTy.bits .f32 = 32 ∨ (Rect.block (s := S128x128) S16x128.size (cc0_transform_6 i) (hinb0_6 i)).WholeWords (EltTy.packing .f32)

variable [Facts₀]

def dot_S592x1024_S1024x816_S592x816_1_0_0_1_n_n : DotDims S592x1024 S1024x816 S592x816 where
  lhsContracting := [1]
  rhsContracting := [0]
  lhsNonContracting := [0]
  rhsNonContracting := [1]
  lhsBatch := []
  rhsBatch := []
  wf := dot_S592x1024_S1024x816_S592x816_1_0_0_1_n_n_wf

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x36x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x50x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x37.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x51.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x36x1024 : Shape := ⟨3, ![128, 36, 1024]⟩
abbrev S128x50x1024 : Shape := ⟨3, ![128, 50, 1024]⟩
abbrev S128 : Shape := ⟨1, ![128]⟩
abbrev S_ : Shape := ⟨0, ![]⟩
abbrev S128x1x1024 : Shape := ⟨3, ![128, 1, 1024]⟩
abbrev S128x37x1024 : Shape := ⟨3, ![128, 37, 1024]⟩
abbrev S128x51x1024 : Shape := ⟨3, ![128, 51, 1024]⟩
abbrev S128x37 : Shape := ⟨2, ![128, 37]⟩
abbrev S128x37x1 : Shape := ⟨3, ![128, 37, 1]⟩
abbrev S128x51 : Shape := ⟨2, ![128, 51]⟩
abbrev S128x51x1 : Shape := ⟨3, ![128, 51, 1]⟩
abbrev S128x51x128x37 : Shape := ⟨4, ![128, 51, 128, 37]⟩
abbrev S128x128x37x51 : Shape := ⟨4, ![128, 128, 37, 51]⟩
abbrev S37 : Shape := ⟨1, ![37]⟩
abbrev S1x37 : Shape := ⟨2, ![1, 37]⟩
abbrev S128x1 : Shape := ⟨2, ![128, 1]⟩
abbrev S51 : Shape := ⟨1, ![51]⟩
abbrev S1x51 : Shape := ⟨2, ![1, 51]⟩
abbrev S128x1x37x1 : Shape := ⟨4, ![128, 1, 37, 1]⟩
abbrev S1x128x1x51 : Shape := ⟨4, ![1, 128, 1, 51]⟩
abbrev S128x128x37 : Shape := ⟨3, ![128, 128, 37]⟩
abbrev S128x128x51 : Shape := ⟨3, ![128, 128, 51]⟩
abbrev S128x128 : Shape := ⟨2, ![128, 128]⟩
abbrev S128x128x1 : Shape := ⟨3, ![128, 128, 1]⟩
abbrev S128x128x1x1 : Shape := ⟨4, ![128, 128, 1, 1]⟩
abbrev S128x128x37x1 : Shape := ⟨4, ![128, 128, 37, 1]⟩
abbrev S128x128x1x51 : Shape := ⟨4, ![128, 128, 1, 51]⟩

abbrev nBuf : Space → Nat
  | .hbm => 150
  | .vmem => 0
  | .smem => 0
  | _ => 0

abbrev hbmTy0_0 (i : Nat) : BufTy := match i % 128 with
  | 0 => ⟨S128x1024, .f32⟩
  | 1 => ⟨S128x36x1024, .f32⟩
  | 2 => ⟨S128x1024, .f32⟩
  | 3 => ⟨S128x50x1024, .f32⟩
  | 4 => ⟨S128, .i32⟩
  | 5 => ⟨S128, .i32⟩
  | 6 => ⟨S_, .f32⟩
  | 7 => ⟨S128x36x1024, .f32⟩
  | 8 => ⟨S128x36x1024, .f32⟩
  | 9 => ⟨S_, .f32⟩
  | 10 => ⟨S128x50x1024, .f32⟩
  | 11 => ⟨S128x50x1024, .f32⟩
  | 12 => ⟨S128x1x1024, .f32⟩
  | 13 => ⟨S128x37x1024, .f32⟩
  | 14 => ⟨S128x1x1024, .f32⟩
  | 15 => ⟨S128x51x1024, .f32⟩
  | 16 => ⟨S128x37x1024, .f32⟩
  | 17 => ⟨S_, .f32⟩
  | 18 => ⟨S128x37, .f32⟩
  | 19 => ⟨S128x37x1, .f32⟩
  | 20 => ⟨S128x37x1, .f32⟩
  | 21 => ⟨S128x37x1024, .f32⟩
  | 22 => ⟨S128x37x1024, .f32⟩
  | 23 => ⟨S128x51x1024, .f32⟩
  | 24 => ⟨S_, .f32⟩
  | 25 => ⟨S128x51, .f32⟩
  | 26 => ⟨S128x51x1, .f32⟩
  | 27 => ⟨S128x51x1, .f32⟩
  | 28 => ⟨S128x51x1024, .f32⟩
  | 29 => ⟨S128x51x1024, .f32⟩
  | 30 => ⟨S128x51x128x37, .f32⟩
  | 31 => ⟨S128x128x37x51, .f32⟩
  | 32 => ⟨S_, .i32⟩
  | 33 => ⟨S128, .i32⟩
  | 34 => ⟨S128, .i32⟩
  | 35 => ⟨S_, .i32⟩
  | 36 => ⟨S128, .i32⟩
  | 37 => ⟨S128, .i32⟩
  | 38 => ⟨S37, .i32⟩
  | 39 => ⟨S1x37, .i32⟩
  | 40 => ⟨S128x1, .i32⟩
  | 41 => ⟨S128x37, .i32⟩
  | 42 => ⟨S128x37, .i32⟩
  | 43 => ⟨S128x37, .i1⟩
  | 44 => ⟨S51, .i32⟩
  | 45 => ⟨S1x51, .i32⟩
  | 46 => ⟨S128x1, .i32⟩
  | 47 => ⟨S128x51, .i32⟩
  | 48 => ⟨S128x51, .i32⟩
  | 49 => ⟨S128x51, .i1⟩
  | 50 => ⟨S128x1x37x1, .i1⟩
  | 51 => ⟨S1x128x1x51, .i1⟩
  | 52 => ⟨S128x128x37x51, .i1⟩
  | 53 => ⟨S128x128x37x51, .i1⟩
  | 54 => ⟨S128x128x37x51, .i1⟩
  | 55 => ⟨S_, .i1⟩
  | 56 => ⟨S128x128x37, .i1⟩
  | 57 => ⟨S128x128x37, .f32⟩
  | 58 => ⟨S_, .i1⟩
  | 59 => ⟨S128x128x51, .i1⟩
  | 60 => ⟨S128x128x51, .f32⟩
  | 61 => ⟨S_, .f32⟩
  | 62 => ⟨S128x128, .f32⟩
  | 63 => ⟨S128x128x1, .f32⟩
  | 64 => ⟨S128x128x37, .f32⟩
  | 65 => ⟨S128x128x37, .f32⟩
  | 66 => ⟨S_, .f32⟩
  | 67 => ⟨S128x128, .f32⟩
  | 68 => ⟨S128x128x1, .f32⟩
  | 69 => ⟨S128x128x51, .f32⟩
  | 70 => ⟨S128x128x51, .f32⟩
  | 71 => ⟨S_, .f32⟩
  | 72 => ⟨S128x128x37x51, .f32⟩
  | 73 => ⟨S128x128x37x51, .f32⟩
  | 74 => ⟨S128x128x37x51, .f32⟩
  | 75 => ⟨S_, .f32⟩
  | 76 => ⟨S128x128x37x51, .f32⟩
  | 77 => ⟨S128x128x37x51, .f32⟩
  | 78 => ⟨S128x128x37x51, .f32⟩
  | 79 => ⟨S_, .f32⟩
  | 80 => ⟨S_, .f32⟩
  | 81 => ⟨S128x128x37x51, .f32⟩
  | 82 => ⟨S128x128x37x51, .f32⟩
  | 83 => ⟨S_, .f32⟩
  | 84 => ⟨S128x128, .f32⟩
  | 85 => ⟨S128x128x1x1, .f32⟩
  | 86 => ⟨S_, .f32⟩
  | 87 => ⟨S128x128x1x1, .f32⟩
  | 88 => ⟨S128x128x1x1, .f32⟩
  | 89 => ⟨S128x128x37x51, .f32⟩
  | 90 => ⟨S128x128x37x51, .f32⟩
  | 91 => ⟨S_, .f32⟩
  | 92 => ⟨S128x128x37, .f32⟩
  | 93 => ⟨S_, .f32⟩
  | 94 => ⟨S128x128x37, .f32⟩
  | 95 => ⟨S128x128x37, .f32⟩
  | 96 => ⟨S128x128x37, .f32⟩
  | 97 => ⟨S128x128x37x1, .f32⟩
  | 98 => ⟨S128x128x37x51, .f32⟩
  | 99 => ⟨S128x128x37x51, .f32⟩
  | 100 => ⟨S_, .f32⟩
  | 101 => ⟨S128x128x51, .f32⟩
  | 102 => ⟨S_, .f32⟩
  | 103 => ⟨S128x128x51, .f32⟩
  | 104 => ⟨S128x128x51, .f32⟩
  | 105 => ⟨S128x128x51, .f32⟩
  | 106 => ⟨S128x128x1x51, .f32⟩
  | 107 => ⟨S128x128x37x51, .f32⟩
  | 108 => ⟨S128x128x37x51, .f32⟩
  | 109 => ⟨S_, .f32⟩
  | 110 => ⟨S128x128x37, .f32⟩
  | 111 => ⟨S_, .f32⟩
  | 112 => ⟨S128x128x37, .f32⟩
  | 113 => ⟨S128x128x37, .f32⟩
  | 114 => ⟨S128x128x37, .f32⟩
  | 115 => ⟨S128x128x37x1, .f32⟩
  | 116 => ⟨S128x128x37x51, .f32⟩
  | 117 => ⟨S128x128x37x51, .f32⟩
  | 118 => ⟨S_, .f32⟩
  | 119 => ⟨S128x128x51, .f32⟩
  | 120 => ⟨S_, .f32⟩
  | 121 => ⟨S128x128x51, .f32⟩
  | 122 => ⟨S128x128x51, .f32⟩
  | 123 => ⟨S128x128x51, .f32⟩
  | 124 => ⟨S128x128x1x51, .f32⟩
  | 125 => ⟨S128x128x37x51, .f32⟩
  | 126 => ⟨S128x128x37x51, .f32⟩
  | 127 => ⟨S_, .f32⟩
  | _ => ⟨S128x1024, .f32⟩

abbrev hbmTy0_1 (i : Nat) : BufTy := match i % 128 with
  | 0 => ⟨S128x128x37, .f32⟩
  | 1 => ⟨S_, .f32⟩
  | 2 => ⟨S128x128x37, .f32⟩
  | 3 => ⟨S128x128x37, .f32⟩
  | 4 => ⟨S128x128x37, .f32⟩
  | 5 => ⟨S128x128x37x1, .f32⟩
  | 6 => ⟨S128x128x37x51, .f32⟩
  | 7 => ⟨S128x128x37x51, .f32⟩
  | 8 => ⟨S_, .f32⟩
  | 9 => ⟨S128x128x51, .f32⟩
  | 10 => ⟨S_, .f32⟩
  | 11 => ⟨S128x128x51, .f32⟩
  | 12 => ⟨S128x128x51, .f32⟩
  | 13 => ⟨S128x128x51, .f32⟩
  | 14 => ⟨S128x128x1x51, .f32⟩
  | 15 => ⟨S128x128x37x51, .f32⟩
  | 16 => ⟨S128x128x37x51, .f32⟩
  | 17 => ⟨S128x128x37x51, .f32⟩
  | 18 => ⟨S128x128x37x51, .f32⟩
  | 19 => ⟨S128x128x37x51, .f32⟩
  | 20 => ⟨S_, .f32⟩
  | 21 => ⟨S128x128, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_2 : Ref sig .tc := ⟨.hbm, 55, rfl⟩
abbrev main_v37 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_17 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_cst_20 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_21 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_23 : Ref sig .tc := ⟨.hbm, 148, rfl⟩
abbrev main_v107 : Ref sig .tc := ⟨.hbm, 149, rfl⟩

abbrev nD : Nat := 1
abbrev τ : Topo := Topo.v7x

variable {F : FTy → Type} [FloatOps F]

class Facts₀ : Prop where
  bcast_S_S128x36x1024 : S_.BroadcastsInDim S128x36x1024 (![] : Fin 0 → Fin S128x36x1024.rank)
  bcast_S_S128x50x1024 : S_.BroadcastsInDim S128x50x1024 (![] : Fin 0 → Fin S128x50x1024.rank)
  bcast_S128x1024_S128x1x1024_0_2 : S128x1024.BroadcastsInDim S128x1x1024 (![0, 2] : Fin 2 → Fin S128x1x1024.rank)
  concatenates_S128x1x1024_S128x36x1024_S128x37x1024_d1 : Shape.Concatenates [S128x1x1024, S128x36x1024] S128x37x1024 1
  concatenates_S128x1x1024_S128x50x1024_S128x51x1024_d1 : Shape.Concatenates [S128x1x1024, S128x50x1024] S128x51x1024 1
  reducesTo_S128x37x1024_S128x37_d2 : S128x37x1024.ReducesTo [2] S128x37
  h_S_ : 0 < S_.numel
  bcast_S128x37_S128x37x1_0_1 : S128x37.BroadcastsInDim S128x37x1 (![0, 1] : Fin 2 → Fin S128x37x1.rank)
  bcast_S128x37x1_S128x37x1024_0_1_2 : S128x37x1.BroadcastsInDim S128x37x1024 (![0, 1, 2] : Fin 3 → Fin S128x37x1024.rank)
  reducesTo_S128x51x1024_S128x51_d2 : S128x51x1024.ReducesTo [2] S128x51
  bcast_S128x51_S128x51x1_0_1 : S128x51.BroadcastsInDim S128x51x1 (![0, 1] : Fin 2 → Fin S128x51x1.rank)
  bcast_S128x51x1_S128x51x1024_0_1_2 : S128x51x1.BroadcastsInDim S128x51x1024 (![0, 1, 2] : Fin 3 → Fin S128x51x1024.rank)
  transposes_S128x51x128x37_S128x128x37x51_2_0_3_1 : S128x51x128x37.Transposes [2, 0, 3, 1] S128x128x37x51
  bcast_S_S128 : S_.BroadcastsInDim S128 (![] : Fin 0 → Fin S128.rank)
  bcast_S37_S1x37_1 : S37.BroadcastsInDim S1x37 (![1] : Fin 1 → Fin S1x37.rank)
  bcast_S128_S128x1_0 : S128.BroadcastsInDim S128x1 (![0] : Fin 1 → Fin S128x1.rank)
  bcast_S1x37_S128x37_0_1 : S1x37.BroadcastsInDim S128x37 (![0, 1] : Fin 2 → Fin S128x37.rank)
  bcast_S128x1_S128x37_0_1 : S128x1.BroadcastsInDim S128x37 (![0, 1] : Fin 2 → Fin S128x37.rank)
  bcast_S51_S1x51_1 : S51.BroadcastsInDim S1x51 (![1] : Fin 1 → Fin S1x51.rank)
  bcast_S1x51_S128x51_0_1 : S1x51.BroadcastsInDim S128x51 (![0, 1] : Fin 2 → Fin S128x51.rank)
  bcast_S128x1_S128x51_0_1 : S128x1.BroadcastsInDim S128x51 (![0, 1] : Fin 2 → Fin S128x51.rank)
  bcast_S128x37_S128x1x37x1_0_2 : S128x37.BroadcastsInDim S128x1x37x1 (![0, 2] : Fin 2 → Fin S128x1x37x1.rank)
  bcast_S128x51_S1x128x1x51_1_3 : S128x51.BroadcastsInDim S1x128x1x51 (![1, 3] : Fin 2 → Fin S1x128x1x51.rank)
  bcast_S128x1x37x1_S128x128x37x51_0_1_2_3 : S128x1x37x1.BroadcastsInDim S128x128x37x51 (![0, 1, 2, 3] : Fin 4 → Fin S128x128x37x51.rank)
  bcast_S1x128x1x51_S128x128x37x51_0_1_2_3 : S1x128x1x51.BroadcastsInDim S128x128x37x51 (![0, 1, 2, 3] : Fin 4 → Fin S128x128x37x51.rank)
  reducesTo_S128x128x37x51_S128x128x37_d3 : S128x128x37x51.ReducesTo [3] S128x128x37
  reducesTo_S128x128x37x51_S128x128x51_d2 : S128x128x37x51.ReducesTo [2] S128x128x51
  reducesTo_S128x128x37_S128x128_d2 : S128x128x37.ReducesTo [2] S128x128
  bcast_S128x128_S128x128x1_0_1 : S128x128.BroadcastsInDim S128x128x1 (![0, 1] : Fin 2 → Fin S128x128x1.rank)
  bcast_S128x128x1_S128x128x37_0_1_2 : S128x128x1.BroadcastsInDim S128x128x37 (![0, 1, 2] : Fin 3 → Fin S128x128x37.rank)
  reducesTo_S128x128x51_S128x128_d2 : S128x128x51.ReducesTo [2] S128x128
  bcast_S128x128x1_S128x128x51_0_1_2 : S128x128x1.BroadcastsInDim S128x128x51 (![0, 1, 2] : Fin 3 → Fin S128x128x51.rank)
  bcast_S_S128x128x37x51 : S_.BroadcastsInDim S128x128x37x51 (![] : Fin 0 → Fin S128x128x37x51.rank)
  reducesTo_S128x128x37x51_S128x128_d2_3 : S128x128x37x51.ReducesTo [2, 3] S128x128
  bcast_S128x128_S128x128x1x1_0_1 : S128x128.BroadcastsInDim S128x128x1x1 (![0, 1] : Fin 2 → Fin S128x128x1x1.rank)
  bcast_S_S128x128x1x1 : S_.BroadcastsInDim S128x128x1x1 (![] : Fin 0 → Fin S128x128x1x1.rank)
  bcast_S128x128x1x1_S128x128x37x51_0_1_2_3 : S128x128x1x1.BroadcastsInDim S128x128x37x51 (![0, 1, 2, 3] : Fin 4 → Fin S128x128x37x51.rank)
  bcast_S_S128x128x37 : S_.BroadcastsInDim S128x128x37 (![] : Fin 0 → Fin S128x128x37.rank)
  bcast_S128x128x37_S128x128x37x1_0_1_2 : S128x128x37.BroadcastsInDim S128x128x37x1 (![0, 1, 2] : Fin 3 → Fin S128x128x37x1.rank)
  bcast_S128x128x37x1_S128x128x37x51_0_1_2_3 : S128x128x37x1.BroadcastsInDim S128x128x37x51 (![0, 1, 2, 3] : Fin 4 → Fin S128x128x37x51.rank)
  bcast_S_S128x128x51 : S_.BroadcastsInDim S128x128x51 (![] : Fin 0 → Fin S128x128x51.rank)
  bcast_S128x128x51_S128x128x1x51_0_1_3 : S128x128x51.BroadcastsInDim S128x128x1x51 (![0, 1, 3] : Fin 3 → Fin S128x128x1x51.rank)
  bcast_S128x128x1x51_S128x128x37x51_0_1_2_3 : S128x128x1x51.BroadcastsInDim S128x128x37x51 (![0, 1, 2, 3] : Fin 4 → Fin S128x128x37x51.rank)
  dot_S128x51x1024_S128x37x1024_S128x51x128x37_2_2_01_01_n_n_wf : DotDims.WF S128x51x1024 S128x37x1024 S128x51x128x37 [2] [2] [0, 1] [0, 1] [] []

variable [Facts₀]

def dot_S128x51x1024_S128x37x1024_S128x51x128x37_2_2_01_01_n_n : DotDims S128x51x1024 S128x37x1024 S128x51x128x37 where
  lhsContracting := [2]
  rhsContracting := [2]
  lhsNonContracting := [0, 1]
  rhsNonContracting := [0, 1]
  lhsBatch := []
  rhsBatch := []
  wf := dot_S128x51x1024_S128x37x1024_S128x51x128x37_2_2_01_01_n_n_wf

class Facts : Prop extends Facts₀ where

variable [Facts]
-- ==== Proof.Chunk.lean ====
/-
  One 16 × 16 tile of scores as a function of the slice offset.

  At a grid point the kernel holds 16 images (their 37 normalised token rows laid out as a 592 × 1024 matrix)
  and all 128 captions (51 normalised rows each). It fills its 16 × 128 output block in eight tiles of 16
  captions. Every tile is the same computation on a different slice of the captions: the similarities of the
  16 images' rows with the 16 captions' rows (one matrix product, re-laid as a 16 × 16 × 37 × 51 array), the
  0/1 mask (the row mask times the column mask), and the transport plan and score built from those two arrays.
  Here that computation is written once, with the slice's offsets as parameters, in pieces that follow the
  mathematics: the live-row and live-column indicators, the marginals, the Gibbs kernel, the initial plan,
  a row rescaling, a column rescaling, and the score. The last theorem says the block the kernel writes is the
  eight tiles laid side by side.
-/
import proofs.«110340_j62466004353037_1_alg».proof.Proof.Gen.KernelIdeal.Frame

noncomputable section

namespace Cert.KernelIdeal.Chunk

open Cert.KernelIdeal Cert.KernelIdeal.Gen Idealize.ShloMosaic Idealize.SL.Sem

variable {F : FTy → Type} [FloatOps F]

/-- A constant array. -/
abbrev splat (s : Shape) (b : BitVec 32) : FVec F s .f32 := broadcast s (Scalar.ofBits .f32 b)

/-- Live rows: the mask summed along a row is positive. As 0 or 1. -/
def liveRows (M : FVec F S16x16x37x51 .f32) : FVec F S16x16x37 .f32 :=
  sitofp .f32 (extui 32 (cmpf .ogt (multiReduction .add [3] S16x16x37 M 0x00000000#32 reduces_S16x16x37x51_S16x16x37 (.inl rfl) rfl)
    (splat S16x16x37 0x00000000#32)) natLt_1_32)

/-- Live columns. -/
def liveCols (M : FVec F S16x16x37x51 .f32) : FVec F S16x16x51 .f32 :=
  sitofp .f32 (extui 32 (cmpf .ogt (multiReduction .add [2] S16x16x51 M 0x00000000#32 reduces_S16x16x37x51_S16x16x51 (.inl rfl) rfl)
    (splat S16x16x51 0x00000000#32)) natLt_1_32)

/-- The uniform marginal on live rows. -/
def rowMargV (M : FVec F S16x16x37x51 .f32) : FVec F S16x16x37 .f32 :=
  divf (liveRows M) (broadcastTo S16x16x37 (shapeCast S16x16x1
    (multiReduction .add [2] S16x16 (liveRows M) 0x00000000#32 reduces_S16x16x37_S16x16 (.inl rfl) rfl) shapeCasts_S16x16_S16x16x1)
    broadcasts_S16x16x1_S16x16x37)

/-- The uniform marginal on live columns. -/
def colMargV (M : FVec F S16x16x37x51 .f32) : FVec F S16x16x51 .f32 :=
  divf (liveCols M) (broadcastTo S16x16x51 (shapeCast S16x16x1
    (multiReduction .add [2] S16x16 (liveCols M) 0x00000000#32 reduces_S16x16x51_S16x16 (.inl rfl) rfl) shapeCasts_S16x16_S16x16x1)
    broadcasts_S16x16x1_S16x16x51)

/-- The Gibbs kernel exp(-(1 - fg)/0.1) on live entries, 0 elsewhere. -/
def gibbsV (fg M : FVec F S16x16x37x51 .f32) : FVec F S16x16x37x51 .f32 :=
  select (cmpf .ogt M (splat S16x16x37x51 0x00000000#32))
    (exp (divf (subf (splat S16x16x37x51 0x00000000#32) (subf (splat S16x16x37x51 0x3F800000#32) fg)) (splat S16x16x37x51 0x3DCCCCCD#32)))
    (splat S16x16x37x51 0x00000000#32)

/-- The Gibbs kernel divided by its total plus ε. -/
def plan0V (fg M : FVec F S16x16x37x51 .f32) : FVec F S16x16x37x51 .f32 :=
  divf (gibbsV fg M) (broadcastTo S16x16x37x51 (addf (shapeCast S16x16x1x1
    (multiReduction .add [2, 3] S16x16 (gibbsV fg M) 0x00000000#32 reduces_S16x16x37x51_S16x16 (.inl rfl) rfl) shapeCasts_S16x16_S16x16x1x1)
    (splat S16x16x1x1 0x358637BD#32)) broadcasts_S16x16x1x1_S16x16x37x51)

/-- Rescale rows towards ρ. -/
def scaleRowsV (ρ : FVec F S16x16x37 .f32) (P : FVec F S16x16x37x51 .f32) : FVec F S16x16x37x51 .f32 :=
  mulf P (broadcastTo S16x16x37x51 (shapeCast S16x16x37x1 (divf ρ (addf
    (multiReduction .add [3] S16x16x37 P 0x00000000#32 reduces_S16x16x37x51_S16x16x37 (.inl rfl) rfl) (splat S16x16x37 0x358637BD#32)))
    shapeCasts_S16x16x37_S16x16x37x1) broadcasts_S16x16x37x1_S16x16x37x51)

/-- Rescale columns towards γ. -/
def scaleColsV (γ : FVec F S16x16x51 .f32) (P : FVec F S16x16x37x51 .f32) : FVec F S16x16x37x51 .f32 :=
  mulf P (broadcastTo S16x16x37x51 (shapeCast S16x16x1x51 (divf γ (addf
    (multiReduction .add [2] S16x16x51 P 0x00000000#32 reduces_S16x16x37x51_S16x16x51 (.inl rfl) rfl) (splat S16x16x51 0x358637BD#32)))
    shapeCasts_S16x16x51_S16x16x1x51) broadcasts_S16x16x1x51_S16x16x37x51)

/-- One round: rows, then columns. -/
def roundV (ρ : FVec F S16x16x37 .f32) (γ : FVec F S16x16x51 .f32) (P : FVec F S16x16x37x51 .f32) : FVec F S16x16x37x51 .f32 :=
  scaleColsV γ (scaleRowsV ρ P)

/-- The plan after three rounds. -/
def planV (fg M : FVec F S16x16x37x51 .f32) : FVec F S16x16x37x51 .f32 :=
  roundV (rowMargV M) (colMargV M) (roundV (rowMargV M) (colMargV M) (roundV (rowMargV M) (colMargV M) (plan0V fg M)))

/-- The scores of the tile. -/
def scoreV (fg M : FVec F S16x16x37x51 .f32) : FVec F S16x16 .f32 :=
  multiReduction .add [2, 3] S16x16 (mulf (mulf fg (planV fg M)) M) 0x00000000#32 reduces_S16x16x37x51_S16x16 (.inl rfl) rfl

/-- The similarities of the 16 images' rows with the rows of the 16 captions from the given offset. -/
def simsOf (off : Fin 3 → Nat) (hs : S128x51x1024.Slices off S16x51x1024) (caps : FVec F S128x51x1024 .f32) (imgs : FVec F S592x1024 .f32) :
    FVec F S16x16x37x51 .f32 :=
  transpose S16x16x37x51 [0, 2, 1, 3] (shapeCast S16x37x16x51
    (matmul dot_S592x1024_S1024x816_S592x816_1_0_0_1_n_n none imgs
      (transpose S1024x816 [1, 0] (shapeCast S816x1024 (extractStridedSlice S16x51x1024 off caps hs) shapeCasts_S16x51x1024_S816x1024)
        transposes_S816x1024_p1_0_S1024x816)
      (constant S592x816 .f32 0x00000000#32))
    shapeCasts_S592x816_S16x37x16x51) transposes_S16x37x16x51_p0_2_1_3_S16x16x37x51

/-- The mask: the images' row mask times the column mask of the 16 captions from the given offset. -/
def maskOf (off : Fin 2 → Nat) (hs : S128x51.Slices off S16x51) (rm : FVec F S16x37 .f32) (wm : FVec F S128x51 .f32) : FVec F S16x16x37x51 .f32 :=
  mulf (broadcastTo S16x16x37x51 (shapeCast S16x1x37x1 rm shapeCasts_S16x37_S16x1x37x1) broadcasts_S16x1x37x1_S16x16x37x51)
    (broadcastTo S16x16x37x51 (shapeCast S1x16x1x51 (extractStridedSlice S16x51 off wm hs) shapeCasts_S16x51_S1x16x1x51)
      broadcasts_S1x16x1x51_S16x16x37x51)

/-- One tile. -/
def chunk (off3 : Fin 3 → Nat) (h3 : S128x51x1024.Slices off3 S16x51x1024) (off2 : Fin 2 → Nat) (h2 : S128x51.Slices off2 S16x51)
    (caps : FVec F S128x51x1024 .f32) (rm : FVec F S16x37 .f32) (wm : FVec F S128x51 .f32) (imgs : FVec F S592x1024 .f32) : FVec F S16x16 .f32 :=
  scoreV (simsOf off3 h3 caps imgs) (maskOf off2 h2 rm wm)

/-- The captions' normalised rows and the images' normalised rows, from the loaded blocks. -/
abbrev capsUnit (x2 : Vec F S128x1024 .f32) (x3 : Vec F S128x50x1024 .f32) : FVec F S128x51x1024 .f32 := k0_pay2 (View.ld x2 r0_2) (View.ld x3 r0_3)
abbrev imgsUnit (x0 : Vec F S16x1024 .f32) (x1 : Vec F S16x36x1024 .f32) : FVec F S592x1024 .f32 := k0_pay5 (View.ld x0 r0_0) (View.ld x1 r0_1)

/-- The block the kernel writes at a grid point is its eight tiles, each the one computation at its offset. -/
theorem out0_6_eq (x0 : Vec F S16x1024 .f32) (x1 : Vec F S16x36x1024 .f32) (x2 : Vec F S128x1024 .f32) (x3 : Vec F S128x50x1024 .f32)
    (x4 : Vec F S16x37 .f32) (x5 : Vec F S128x51 .f32) :
    out0_6 x0 x1 x2 x3 x4 x5 = View.canon [⟨r0_13, chunk ![112, 0, 0] slices_S128x51x1024_o112_0_0_S16x51x1024 ![112, 0] slices_S128x51_o112_0_S16x51 (capsUnit x2 x3) (k0_pay3 (View.ld x4 r0_4)) (k0_pay4 (View.ld x5 r0_5)) (imgsUnit x0 x1)⟩,
      ⟨r0_12, chunk ![96, 0, 0] slices_S128x51x1024_o96_0_0_S16x51x1024 ![96, 0] slices_S128x51_o96_0_S16x51 (capsUnit x2 x3) (k0_pay3 (View.ld x4 r0_4)) (k0_pay4 (View.ld x5 r0_5)) (imgsUnit x0 x1)⟩,
      ⟨r0_11, chunk ![80, 0, 0] slices_S128x51x1024_o80_0_0_S16x51x1024 ![80, 0] slices_S128x51_o80_0_S16x51 (capsUnit x2 x3) (k0_pay3 (View.ld x4 r0_4)) (k0_pay4 (View.ld x5 r0_5)) (imgsUnit x0 x1)⟩,
      ⟨r0_10, chunk ![64, 0, 0] slices_S128x51x1024_o64_0_0_S16x51x1024 ![64, 0] slices_S128x51_o64_0_S16x51 (capsUnit x2 x3) (k0_pay3 (View.ld x4 r0_4)) (k0_pay4 (View.ld x5 r0_5)) (imgsUnit x0 x1)⟩,
      ⟨r0_9, chunk ![48, 0, 0] slices_S128x51x1024_o48_0_0_S16x51x1024 ![48, 0] slices_S128x51_o48_0_S16x51 (capsUnit x2 x3) (k0_pay3 (View.ld x4 r0_4)) (k0_pay4 (View.ld x5 r0_5)) (imgsUnit x0 x1)⟩,
      ⟨r0_8, chunk ![32, 0, 0] slices_S128x51x1024_o32_0_0_S16x51x1024 ![32, 0] slices_S128x51_o32_0_S16x51 (capsUnit x2 x3) (k0_pay3 (View.ld x4 r0_4)) (k0_pay4 (View.ld x5 r0_5)) (imgsUnit x0 x1)⟩,
      ⟨r0_7, chunk ![16, 0, 0] slices_S128x51x1024_o16_0_0_S16x51x1024 ![16, 0] slices_S128x51_o16_0_S16x51 (capsUnit x2 x3) (k0_pay3 (View.ld x4 r0_4)) (k0_pay4 (View.ld x5 r0_5)) (imgsUnit x0 x1)⟩,
      ⟨r0_6, chunk ![0, 0, 0] slices_S128x51x1024_o0_0_0_S16x51x1024 ![0, 0] slices_S128x51_o0_0_S16x51 (capsUnit x2 x3) (k0_pay3 (View.ld x4 r0_4)) (k0_pay4 (View.ld x5 r0_5)) (imgsUnit x0 x1)⟩] := by
  rfl

end Cert.KernelIdeal.Chunk

end
-- ==== Proof.Spec.lean ====
/-
  The score of one (image, caption) pair, as a function of that pair's data alone.

  An image contributes 37 token rows (its class token, then its 36 region tokens each shifted by ε) and a
  caption 51 (its class token, then 50 word tokens shifted by ε); every row is divided by its Euclidean
  length. `sims` is the 37 × 51 matrix of inner products of the normalised rows. A 0/1 mask `M r w` (the
  product of a row mask and a column mask) says which entries are live. From these the transport plan is
  built: `E = exp(-(1 - sims)/0.1)` on live entries and 0 elsewhere, divided by its total plus ε, then
  three rounds of rescaling, each round first the rows towards the uniform marginal on live rows and then
  the columns towards the uniform marginal on live columns. The score is the sum over the matrix of
  `sims · plan · M`.

  Every operation is the extended-real one (division by zero, the square root of a negative and so on have
  their fixed conventions there), so this is a total function and no finiteness of the data is asked.
-/
import Idealize.ShloMosaic.PureOps.Ideal
import Idealize.ShloMosaic.PureOps.Ideal.Laws
import Idealize.ShloMosaic.Lib.ValueIdx

noncomputable section

namespace Cert.Spec

open Idealize.ShloMosaic

/-- ε, the single-precision number nearest 10⁻⁶. -/
abbrev eps : EReal := Ideal.ofBits .f32 0x358637BD#32
/-- The temperature, the single-precision number nearest 1/10. -/
abbrev temp : EReal := Ideal.ofBits .f32 0x3DCCCCCD#32
abbrev one : EReal := Ideal.ofBits .f32 0x3F800000#32
abbrev zero : EReal := Ideal.ofBits .f32 0x00000000#32

/-- Whether an extended real is positive, as a one-bit word. -/
def isPos (x : EReal) : BitVec 1 := Ideal.cmp .ogt x zero

/-- A one-bit word as the number 0 or 1: widened to 32 bits, then read as a signed integer. -/
def bit (b : BitVec 1) : EReal := FloatOps.sitofp (F := Ideal) .f32 (b.setWidth 32)

/-- The indicator of positivity, 0 or 1. -/
def ind (x : EReal) : EReal := bit (isPos x)

/-- The token rows of one item: the class token first, then the other tokens each shifted by ε. -/
def toks {n : Nat} (cls : Fin 1024 → EReal) (x : Fin n → Fin 1024 → EReal) (r : Fin (n + 1)) (d : Fin 1024) : EReal :=
  if h : r.val = 0 then cls d else x ⟨r.val - 1, by have := r.isLt; omega⟩ d + eps

/-- Each row divided by its Euclidean length. -/
def unit {n : Nat} (u : Fin n → Fin 1024 → EReal) (r : Fin n) (d : Fin 1024) : EReal :=
  Ideal.div (u r d) (Ideal.sqrt (∑ k : Fin 1024, u r k * u r k))

/-- The matrix of inner products of two families of rows. -/
def sims {a b : Nat} (A : Fin a → Fin 1024 → EReal) (B : Fin b → Fin 1024 → EReal) (r : Fin a) (w : Fin b) : EReal :=
  ∑ d : Fin 1024, A r d * B w d

section Core
variable {a b : Nat}

/-- A row is live when its mask entries sum to something positive; likewise a column. -/
def rowLive (M : Fin a → Fin b → EReal) (r : Fin a) : EReal := ind (∑ w : Fin b, M r w)
def colLive (M : Fin a → Fin b → EReal) (w : Fin b) : EReal := ind (∑ r : Fin a, M r w)

/-- The uniform marginal on the live rows, and on the live columns. -/
def rowMarg (M : Fin a → Fin b → EReal) (r : Fin a) : EReal := Ideal.div (rowLive M r) (∑ r' : Fin a, rowLive M r')
def colMarg (M : Fin a → Fin b → EReal) (w : Fin b) : EReal := Ideal.div (colLive M w) (∑ w' : Fin b, colLive M w')

/-- The Gibbs kernel on live entries, 0 elsewhere. -/
def gibbs (fg M : Fin a → Fin b → EReal) (r : Fin a) (w : Fin b) : EReal :=
  Scalar.select (isPos (M r w)) (Ideal.exp (Ideal.div (zero - (one - fg r w)) temp)) zero

/-- The Gibbs kernel divided by its total plus ε. -/
def plan0 (fg M : Fin a → Fin b → EReal) (r : Fin a) (w : Fin b) : EReal :=
  Ideal.div (gibbs fg M r w) ((∑ r' : Fin a, ∑ w' : Fin b, gibbs fg M r' w') + eps)

/-- Rescale every row towards the marginal ρ. -/
def scaleRows (ρ : Fin a → EReal) (P : Fin a → Fin b → EReal) (r : Fin a) (w : Fin b) : EReal :=
  P r w * Ideal.div (ρ r) ((∑ w' : Fin b, P r w') + eps)

/-- Rescale every column towards the marginal γ. -/
def scaleCols (γ : Fin b → EReal) (P : Fin a → Fin b → EReal) (r : Fin a) (w : Fin b) : EReal :=
  P r w * Ideal.div (γ w) ((∑ r' : Fin a, P r' w) + eps)

/-- One round: rows, then columns. -/
def round (ρ : Fin a → EReal) (γ : Fin b → EReal) (P : Fin a → Fin b → EReal) : Fin a → Fin b → EReal :=
  scaleCols γ (scaleRows ρ P)

/-- The plan after three rounds. -/
def plan (fg M : Fin a → Fin b → EReal) : Fin a → Fin b → EReal :=
  round (rowMarg M) (colMarg M) (round (rowMarg M) (colMarg M) (round (rowMarg M) (colMarg M) (plan0 fg M)))

/-- The score: the mass the plan moves, weighted by similarity, over live entries. -/
def core (fg M : Fin a → Fin b → EReal) : EReal :=
  ∑ r : Fin a, ∑ w : Fin b, fg r w * plan fg M r w * M r w

end Core

/-- The score of one pair from its raw data: the image's class token and region tokens, the caption's class
    token and word tokens, and the two 0/1 masks. -/
def pair (ic : Fin 1024 → EReal) (it : Fin 36 → Fin 1024 → EReal) (cc : Fin 1024 → EReal) (ct : Fin 50 → Fin 1024 → EReal)
    (rm : Fin 37 → EReal) (wm : Fin 51 → EReal) : EReal :=
  core (a := 37) (b := 51) (sims (unit (toks ic it)) (unit (toks cc ct))) (fun r w => rm r * wm w)

/-- Position k is inside an item of the given length (plus its class token): k < len + 1, as signed 32-bit words. -/
def lenBit (len : BitVec 32) (k : Nat) : BitVec 1 := IntOp.cmpi .slt (BitVec.ofNat 32 k) (IntOp.addi len 1#32)

/-- The same as the number 0 or 1 (the word read unsigned). -/
def lenMask (len : BitVec 32) (k : Nat) : EReal := FloatOps.uitofp (F := Ideal) .f32 (lenBit len k)

/-- The score of image i against caption t, read off the six argument arrays. -/
def pairAt (a0 : (⟨2, ![128, 1024]⟩ : Shape).Idx → EReal) (a1 : (⟨3, ![128, 36, 1024]⟩ : Shape).Idx → EReal)
    (a2 : (⟨2, ![128, 1024]⟩ : Shape).Idx → EReal) (a3 : (⟨3, ![128, 50, 1024]⟩ : Shape).Idx → EReal)
    (a4 a5 : (⟨1, ![128]⟩ : Shape).Idx → BitVec 32) (i t : Fin 128) : EReal :=
  pair (fun d => a0 (ValueIdx.ix2 i d)) (fun k d => a1 (ValueIdx.ix3 i k d)) (fun d => a2 (ValueIdx.ix2 t d)) (fun k d => a3 (ValueIdx.ix3 t k d))
    (fun r => lenMask (a4 (ValueIdx.ix1 i)) r.val) (fun w => lenMask (a5 (ValueIdx.ix1 t)) w.val)

/-- The whole 128 × 128 array of scores. -/
def scores (a0 : (⟨2, ![128, 1024]⟩ : Shape).Idx → EReal) (a1 : (⟨3, ![128, 36, 1024]⟩ : Shape).Idx → EReal)
    (a2 : (⟨2, ![128, 1024]⟩ : Shape).Idx → EReal) (a3 : (⟨3, ![128, 50, 1024]⟩ : Shape).Idx → EReal)
    (a4 a5 : (⟨1, ![128]⟩ : Shape).Idx → BitVec 32) : (⟨2, ![128, 128]⟩ : Shape).Idx → EReal :=
  fun idx => pairAt a0 a1 a2 a3 a4 a5 (idx 0) (idx 1)

end Cert.Spec

end
-- ==== Proof.LibSumLastTwo.lean ====
/-
  A sum over the last two axes of a rank-4 array, read at an index of the first two.

  The exact sum of the entries that reduce to (i, j) — the entries (i, j, r, w) over all r and w — is the
  iterated sum over r and then over w. This holds for the vector unit's reduction and for the host's (which
  adds its initial value in front), at any extents.

  The argument: dropping axes 2 and 3 of (p, q, r, w) leaves (p, q), so the indices that drop to (i, j) are
  exactly the (i, j, r, w); they correspond one to one to the pairs (r, w), and a sum over pairs is the
  iterated sum.
-/
import Idealize.ShloMosaic.PureOps.Ideal
import Idealize.ShloMosaic.PureOps.Ideal.Laws
import Idealize.ShloMosaic.Lib.ValueIdx

noncomputable section

namespace Idealize.ShloMosaic.Ideal

open Idealize.ShloMosaic Idealize.ShloMosaic.ValueIdx

variable {a b c d : Nat}

/-- Dropping the last two axes of (p, q, r, w) leaves (p, q): the kept axes of a rank-4 shape outside {2, 3}
    are 0 and 1, whatever the extents. -/
theorem drop_last2_ix4 (h : Shape.Reduces (⟨4, ![a, b, c, d]⟩ : Shape) [2, 3] (⟨2, ![a, b]⟩ : Shape))
    (p : Fin a) (q : Fin b) (r : Fin c) (w : Fin d) : h.drop (ix4 p q r w) = ix2 p q := by
  funext e
  match e with
  | ⟨0, _⟩ => rfl
  | ⟨1, _⟩ => rfl

/-- An index is (its first two coordinates as they drop, its last two coordinates). -/
theorem ix4_drop_last2 (h : Shape.Reduces (⟨4, ![a, b, c, d]⟩ : Shape) [2, 3] (⟨2, ![a, b]⟩ : Shape))
    (i : (⟨4, ![a, b, c, d]⟩ : Shape).Idx) : ix4 (h.drop i 0) (h.drop i 1) (i 2) (i 3) = i := by
  funext e
  match e with
  | ⟨0, _⟩ => rfl
  | ⟨1, _⟩ => rfl
  | ⟨2, _⟩ => rfl
  | ⟨3, _⟩ => rfl

/-- In any additive commutative monoid, the sum over the indices that drop to j is the iterated sum over the
    last two coordinates: i ↦ (i 2, i 3) is a bijection from those indices onto all pairs, with inverse
    (r, w) ↦ (j 0, j 1, r, w). -/
theorem sum_filter_drop_last2 {M : Type*} [AddCommMonoid M]
    (h : Shape.Reduces (⟨4, ![a, b, c, d]⟩ : Shape) [2, 3] (⟨2, ![a, b]⟩ : Shape))
    (x : (⟨4, ![a, b, c, d]⟩ : Shape).Idx → M) (j : (⟨2, ![a, b]⟩ : Shape).Idx) :
    ∑ i ∈ Finset.univ.filter (fun i => h.drop i = j), x i = ∑ r : Fin c, ∑ w : Fin d, x (ix4 (j 0) (j 1) r w) := by
  rw [← Fintype.sum_prod_type' (f := fun r w => x (ix4 (j 0) (j 1) r w))]
  refine Finset.sum_nbij' (fun i => (i 2, i 3)) (fun p => ix4 (j 0) (j 1) p.1 p.2) ?_ ?_ ?_ ?_ ?_
  · intro i _; exact Finset.mem_univ _
  · intro p _
    rw [Finset.mem_filter]
    exact ⟨Finset.mem_univ _, (drop_last2_ix4 h _ _ _ _).trans (eq_ix2 j).symm⟩
  · intro i hi
    obtain ⟨-, rfl⟩ := Finset.mem_filter.mp hi
    exact ix4_drop_last2 h i
  · intro p _; rfl
  · intro i hi
    obtain ⟨-, rfl⟩ := Finset.mem_filter.mp hi
    exact congrArg x (ix4_drop_last2 h i).symm

/-- The entries of a rank-4 array that reduce to (i, j) over axes 2 and 3, summed: the double sum over r and w. -/
theorem reduceAdd_last2 (h : Shape.Reduces (⟨4, ![a, b, c, d]⟩ : Shape) [2, 3] (⟨2, ![a, b]⟩ : Shape))
    (x : (⟨4, ![a, b, c, d]⟩ : Shape).Idx → EReal) (j : (⟨2, ![a, b]⟩ : Shape).Idx) :
    Ideal.reduceAdd h x j = ∑ r : Fin c, ∑ w : Fin d, x (ix4 (j 0) (j 1) r w) :=
  sum_filter_drop_last2 h x j

/-- The vector unit's sum over the last two axes. -/
theorem multiReduction_add_last2 {φ : FTy} (src : FVec Ideal (⟨4, ![a, b, c, d]⟩ : Shape) φ) (acc : BitVec φ.bits)
    (h : Shape.Reduces (⟨4, ![a, b, c, d]⟩ : Shape) [2, 3] (⟨2, ![a, b]⟩ : Shape)) (hφ : FKind.Formats φ)
    (hacc : acc = FKind.add.neutral φ hφ) (j : (⟨2, ![a, b]⟩ : Shape).Idx) :
    multiReduction .add [2, 3] (⟨2, ![a, b]⟩ : Shape) src acc h hφ hacc j = ∑ r : Fin c, ∑ w : Fin d, src (ix4 (j 0) (j 1) r w) :=
  sum_filter_drop_last2 h src j

/-- The host's sum over the last two axes: its initial value, then the same double sum. The host's shape fact
    allows a result of rank zero; here the result has rank two, so it is also the vector unit's shape fact, and
    the two drop an index to the same place. -/
theorem hostReduceAdd_last2 (h' : Shape.ReducesTo (⟨4, ![a, b, c, d]⟩ : Shape) [2, 3] (⟨2, ![a, b]⟩ : Shape))
    (x : (⟨4, ![a, b, c, d]⟩ : Shape).Idx → EReal) (init : EReal) (j : (⟨2, ![a, b]⟩ : Shape).Idx) :
    Ideal.hostReduceAdd h' x init j = init + ∑ r : Fin c, ∑ w : Fin d, x (ix4 (j 0) (j 1) r w) := by
  have h : Shape.Reduces (⟨4, ![a, b, c, d]⟩ : Shape) [2, 3] (⟨2, ![a, b]⟩ : Shape) :=
    ⟨h'.1, Nat.zero_lt_two, h'.2⟩
  unfold Ideal.hostReduceAdd
  rw [Shape.ReducesTo.drop_eq_drop h' h, sum_filter_drop_last2 h x j]

end Idealize.ShloMosaic.Ideal

end
-- ==== Proof.ScoreAt.lean ====
/-
  The score of a tile read at one pair.

  Entry (p, q) of the tile's 16 × 16 score array depends only on the 37 × 51 slices at (p, q) of the similarity
  array and of the mask array: it is the score `Spec.core` of those two matrices. Each stage of the computation
  (live rows and columns, marginals, Gibbs kernel, initial plan, the two rescalings) is read at an index the
  same way: a sum along an axis of the 4-dimensional array is the sum of the slice's row or column.
-/
import proofs.«110340_j62466004353037_1_alg».proof.Proof.Chunk
import proofs.«110340_j62466004353037_1_alg».proof.Proof.Spec
import proofs.«110340_j62466004353037_1_alg».proof.Proof.LibSumLastTwo
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ScoreAt

open Cert.KernelIdeal Cert.KernelIdeal.Gen Cert.KernelIdeal.Chunk Idealize.ShloMosaic Idealize.ShloMosaic.ValueIdx Idealize.SL.Sem

/-- A 16 × 16 array given a unit third axis and repeated along 37 rows reads its (p, q) entry at every row. -/
theorem keep_rows (v : FVec Ideal S16x16 .f32) (p q : Fin 16) (r : Fin 37) :
    broadcastTo S16x16x37 (shapeCast S16x16x1 v shapeCasts_S16x16_S16x16x1) broadcasts_S16x16x1_S16x16x37 (ix3 p q r) = v (ix2 p q) := by
  refine (broadcastTo_apply _ _ (ix3 p q r) (ix3 p q (0 : Fin 1)) (fun a => match a with
    | ⟨0, _⟩ => rfl | ⟨1, _⟩ => rfl | ⟨2, _⟩ => rfl)).trans ?_
  refine shapeCast_apply _ _ (ix3 p q (0 : Fin 1)) (ix2 p q) ?_
  rw [Shape.rowMajor_val_two, Shape.rowMajor_val_three]
  show p.val * 16 + q.val = (p.val * 16 + q.val) * 1 + 0
  omega

/-- The same along 51 columns. -/
theorem keep_cols (v : FVec Ideal S16x16 .f32) (p q : Fin 16) (w : Fin 51) :
    broadcastTo S16x16x51 (shapeCast S16x16x1 v shapeCasts_S16x16_S16x16x1) broadcasts_S16x16x1_S16x16x51 (ix3 p q w) = v (ix2 p q) := by
  refine (broadcastTo_apply _ _ (ix3 p q w) (ix3 p q (0 : Fin 1)) (fun a => match a with
    | ⟨0, _⟩ => rfl | ⟨1, _⟩ => rfl | ⟨2, _⟩ => rfl)).trans ?_
  refine shapeCast_apply _ _ (ix3 p q (0 : Fin 1)) (ix2 p q) ?_
  rw [Shape.rowMajor_val_two, Shape.rowMajor_val_three]
  show p.val * 16 + q.val = (p.val * 16 + q.val) * 1 + 0
  omega

/-- A 16 × 16 × 1 × 1 array repeated over the 37 × 51 matrix reads its (p, q, 0, 0) entry everywhere. -/
theorem spread_unit (X : FVec Ideal S16x16x1x1 .f32) (p q : Fin 16) (r : Fin 37) (w : Fin 51) :
    broadcastTo S16x16x37x51 X broadcasts_S16x16x1x1_S16x16x37x51 (ix4 p q r w) = X (ix4 p q (0 : Fin 1) (0 : Fin 1)) :=
  broadcastTo_apply _ _ (ix4 p q r w) (ix4 p q (0 : Fin 1) (0 : Fin 1)) (fun a => match a with
    | ⟨0, _⟩ => rfl | ⟨1, _⟩ => rfl | ⟨2, _⟩ => rfl | ⟨3, _⟩ => rfl)

/-- A 16 × 16 array given two unit axes reads its (p, q) entry at (p, q, 0, 0). -/
theorem cast_unit (v : FVec Ideal S16x16 .f32) (p q : Fin 16) :
    shapeCast S16x16x1x1 v shapeCasts_S16x16_S16x16x1x1 (ix4 p q (0 : Fin 1) (0 : Fin 1)) = v (ix2 p q) := by
  refine shapeCast_apply _ _ (ix4 p q (0 : Fin 1) (0 : Fin 1)) (ix2 p q) ?_
  rw [Shape.rowMajor_val_two, Shape.rowMajor_val_four]
  show p.val * 16 + q.val = ((p.val * 16 + q.val) * 1 + 0) * 1 + 0
  omega

/-- A 16 × 16 × 37 array given a unit last axis and repeated along 51 columns reads its (p, q, r) entry. -/
theorem spread_rows (u : FVec Ideal S16x16x37 .f32) (p q : Fin 16) (r : Fin 37) (w : Fin 51) :
    broadcastTo S16x16x37x51 (shapeCast S16x16x37x1 u shapeCasts_S16x16x37_S16x16x37x1) broadcasts_S16x16x37x1_S16x16x37x51 (ix4 p q r w)
      = u (ix3 p q r) := by
  refine (broadcastTo_apply _ _ (ix4 p q r w) (ix4 p q r (0 : Fin 1)) (fun a => match a with
    | ⟨0, _⟩ => rfl | ⟨1, _⟩ => rfl | ⟨2, _⟩ => rfl | ⟨3, _⟩ => rfl)).trans ?_
  refine shapeCast_apply _ _ (ix4 p q r (0 : Fin 1)) (ix3 p q r) ?_
  rw [Shape.rowMajor_val_three, Shape.rowMajor_val_four]
  show (p.val * 16 + q.val) * 37 + r.val = ((p.val * 16 + q.val) * 37 + r.val) * 1 + 0
  omega

/-- A 16 × 16 × 51 array given a unit third axis and repeated along 37 rows reads its (p, q, w) entry. -/
theorem spread_cols (u : FVec Ideal S16x16x51 .f32) (p q : Fin 16) (r : Fin 37) (w : Fin 51) :
    broadcastTo S16x16x37x51 (shapeCast S16x16x1x51 u shapeCasts_S16x16x51_S16x16x1x51) broadcasts_S16x16x1x51_S16x16x37x51 (ix4 p q r w)
      = u (ix3 p q w) := by
  refine (broadcastTo_apply _ _ (ix4 p q r w) (ix4 p q (0 : Fin 1) w) (fun a => match a with
    | ⟨0, _⟩ => rfl | ⟨1, _⟩ => rfl | ⟨2, _⟩ => rfl | ⟨3, _⟩ => rfl)).trans ?_
  refine shapeCast_apply _ _ (ix4 p q (0 : Fin 1) w) (ix3 p q w) ?_
  rw [Shape.rowMajor_val_three, Shape.rowMajor_val_four]
  show (p.val * 16 + q.val) * 51 + w.val = ((p.val * 16 + q.val) * 1 + 0) * 51 + w.val
  omega

/-- The sum along the last axis of a 16 × 16 × 37 × 51 array, at (p, q, r): the sum of row r of the (p, q) slice. -/
theorem sum_row (X : FVec Ideal S16x16x37x51 .f32) (p q : Fin 16) (r : Fin 37) :
    multiReduction .add [3] S16x16x37 X 0x00000000#32 reduces_S16x16x37x51_S16x16x37 (.inl rfl) rfl (ix3 p q r)
      = ∑ w : Fin 51, X (ix4 p q r w) := by
  refine (Ideal.multiReduction_add_single X _ reduces_S16x16x37x51_S16x16x37 (.inl rfl) rfl (ix3 p q r)).trans ?_
  refine Finset.sum_congr rfl fun w _ => congrArg X (funext fun a => Fin.ext ?_)
  match a with
  | ⟨0, _⟩ => rfl | ⟨1, _⟩ => rfl | ⟨2, _⟩ => rfl | ⟨3, _⟩ => rfl

/-- The sum along the third axis, at (p, q, w): the sum of column w of the (p, q) slice. -/
theorem sum_col (X : FVec Ideal S16x16x37x51 .f32) (p q : Fin 16) (w : Fin 51) :
    multiReduction .add [2] S16x16x51 X 0x00000000#32 reduces_S16x16x37x51_S16x16x51 (.inl rfl) rfl (ix3 p q w)
      = ∑ r : Fin 37, X (ix4 p q r w) := by
  refine (Ideal.multiReduction_add_single X _ reduces_S16x16x37x51_S16x16x51 (.inl rfl) rfl (ix3 p q w)).trans ?_
  refine Finset.sum_congr rfl fun r _ => congrArg X (funext fun a => Fin.ext ?_)
  match a with
  | ⟨0, _⟩ => rfl | ⟨1, _⟩ => rfl | ⟨2, _⟩ => rfl | ⟨3, _⟩ => rfl

/-- The sum along the last axis of a 16 × 16 × 37 array, at (p, q). -/
theorem sum_rows (u : FVec Ideal S16x16x37 .f32) (p q : Fin 16) :
    multiReduction .add [2] S16x16 u 0x00000000#32 reduces_S16x16x37_S16x16 (.inl rfl) rfl (ix2 p q)
      = ∑ r : Fin 37, u (ix3 p q r) := by
  refine (Ideal.multiReduction_add_single u _ reduces_S16x16x37_S16x16 (.inl rfl) rfl (ix2 p q)).trans ?_
  refine Finset.sum_congr rfl fun r _ => congrArg u (funext fun a => Fin.ext ?_)
  match a with
  | ⟨0, _⟩ => rfl | ⟨1, _⟩ => rfl | ⟨2, _⟩ => rfl

/-- The sum along the last axis of a 16 × 16 × 51 array, at (p, q). -/
theorem sum_cols (u : FVec Ideal S16x16x51 .f32) (p q : Fin 16) :
    multiReduction .add [2] S16x16 u 0x00000000#32 reduces_S16x16x51_S16x16 (.inl rfl) rfl (ix2 p q)
      = ∑ w : Fin 51, u (ix3 p q w) := by
  refine (Ideal.multiReduction_add_single u _ reduces_S16x16x51_S16x16 (.inl rfl) rfl (ix2 p q)).trans ?_
  refine Finset.sum_congr rfl fun w _ => congrArg u (funext fun a => Fin.ext ?_)
  match a with
  | ⟨0, _⟩ => rfl | ⟨1, _⟩ => rfl | ⟨2, _⟩ => rfl

/-- The sum over the last two axes, at (p, q): the total of the (p, q) slice. -/
theorem sum_all (X : FVec Ideal S16x16x37x51 .f32) (p q : Fin 16) :
    multiReduction .add [2, 3] S16x16 X 0x00000000#32 reduces_S16x16x37x51_S16x16 (.inl rfl) rfl (ix2 p q)
      = ∑ r : Fin 37, ∑ w : Fin 51, X (ix4 p q r w) :=
  Ideal.multiReduction_add_last2 X _ reduces_S16x16x37x51_S16x16 (.inl rfl) rfl (ix2 p q)

/-- The (p, q) slice of a 16 × 16 × 37 × 51 array: a 37 × 51 matrix. -/
abbrev slice (X : FVec Ideal S16x16x37x51 .f32) (p q : Fin 16) : Fin 37 → Fin 51 → EReal := fun r w => X (ix4 p q r w)
/-- The (p, q) fibre of a 16 × 16 × 37 array: a vector of 37 entries. -/
abbrev rowsAt (u : FVec Ideal S16x16x37 .f32) (p q : Fin 16) : Fin 37 → EReal := fun r => u (ix3 p q r)
/-- The (p, q) fibre of a 16 × 16 × 51 array: a vector of 51 entries. -/
abbrev colsAt (u : FVec Ideal S16x16x51 .f32) (p q : Fin 16) : Fin 51 → EReal := fun w => u (ix3 p q w)

/-- The live-row indicator at (p, q, r) is that of row r of the (p, q) slice of the mask. -/
theorem liveRows_apply (M : FVec Ideal S16x16x37x51 .f32) (p q : Fin 16) (r : Fin 37) :
    liveRows M (ix3 p q r) = Spec.rowLive (slice M p q) r :=
  congrArg Spec.ind (sum_row M p q r)

/-- The live-column indicator at (p, q, w) is that of column w of the (p, q) slice of the mask. -/
theorem liveCols_apply (M : FVec Ideal S16x16x37x51 .f32) (p q : Fin 16) (w : Fin 51) :
    liveCols M (ix3 p q w) = Spec.colLive (slice M p q) w :=
  congrArg Spec.ind (sum_col M p q w)

/-- The row marginal at (p, q, r). -/
theorem rowMargV_apply (M : FVec Ideal S16x16x37x51 .f32) (p q : Fin 16) (r : Fin 37) :
    rowMargV M (ix3 p q r) = Spec.rowMarg (slice M p q) r :=
  congrArg₂ Ideal.div (liveRows_apply M p q r)
    ((keep_rows _ p q r).trans ((sum_rows (liveRows M) p q).trans (Finset.sum_congr rfl fun r' _ => liveRows_apply M p q r')))

/-- The column marginal at (p, q, w). -/
theorem colMargV_apply (M : FVec Ideal S16x16x37x51 .f32) (p q : Fin 16) (w : Fin 51) :
    colMargV M (ix3 p q w) = Spec.colMarg (slice M p q) w :=
  congrArg₂ Ideal.div (liveCols_apply M p q w)
    ((keep_cols _ p q w).trans ((sum_cols (liveCols M) p q).trans (Finset.sum_congr rfl fun w' _ => liveCols_apply M p q w')))

/-- The Gibbs kernel is computed entry by entry. -/
theorem gibbsV_apply (fg M : FVec Ideal S16x16x37x51 .f32) (p q : Fin 16) (r : Fin 37) (w : Fin 51) :
    gibbsV fg M (ix4 p q r w) = Spec.gibbs (slice fg p q) (slice M p q) r w := rfl

/-- The initial plan at (p, q, r, w): the Gibbs kernel divided by the total of its (p, q) slice plus ε. -/
theorem plan0V_apply (fg M : FVec Ideal S16x16x37x51 .f32) (p q : Fin 16) (r : Fin 37) (w : Fin 51) :
    plan0V fg M (ix4 p q r w) = Spec.plan0 (slice fg p q) (slice M p q) r w :=
  congrArg (fun x => Ideal.div (Spec.gibbs (slice fg p q) (slice M p q) r w) x)
    ((spread_unit _ p q r w).trans (congrArg (fun x => x + Spec.eps) ((cast_unit _ p q).trans (sum_all (gibbsV fg M) p q))))

/-- A row rescaling at (p, q, r, w) is the row rescaling of the (p, q) slice. -/
theorem scaleRowsV_apply (ρ : FVec Ideal S16x16x37 .f32) (P : FVec Ideal S16x16x37x51 .f32) (p q : Fin 16) (r : Fin 37) (w : Fin 51) :
    scaleRowsV ρ P (ix4 p q r w) = Spec.scaleRows (rowsAt ρ p q) (slice P p q) r w :=
  congrArg (fun x => P (ix4 p q r w) * x)
    ((spread_rows _ p q r w).trans (congrArg (fun x => Ideal.div (ρ (ix3 p q r)) (x + Spec.eps)) (sum_row P p q r)))

/-- A column rescaling at (p, q, r, w) is the column rescaling of the (p, q) slice. -/
theorem scaleColsV_apply (γ : FVec Ideal S16x16x51 .f32) (P : FVec Ideal S16x16x37x51 .f32) (p q : Fin 16) (r : Fin 37) (w : Fin 51) :
    scaleColsV γ P (ix4 p q r w) = Spec.scaleCols (colsAt γ p q) (slice P p q) r w :=
  congrArg (fun x => P (ix4 p q r w) * x)
    ((spread_cols _ p q r w).trans (congrArg (fun x => Ideal.div (γ (ix3 p q w)) (x + Spec.eps)) (sum_col P p q w)))

/-- One round on the array is one round on each slice. -/
theorem roundV_slice (ρ : FVec Ideal S16x16x37 .f32) (γ : FVec Ideal S16x16x51 .f32) (P : FVec Ideal S16x16x37x51 .f32) (p q : Fin 16) :
    slice (roundV ρ γ P) p q = Spec.round (rowsAt ρ p q) (colsAt γ p q) (slice P p q) := by
  funext r w
  refine (scaleColsV_apply γ (scaleRowsV ρ P) p q r w).trans ?_
  exact congrArg (fun Q => Spec.scaleCols (colsAt γ p q) Q r w) (funext fun r' => funext fun w' => scaleRowsV_apply ρ P p q r' w')

/-- The plan's (p, q) slice is the plan of the (p, q) slices. -/
theorem planV_slice (fg M : FVec Ideal S16x16x37x51 .f32) (p q : Fin 16) :
    slice (planV fg M) p q = Spec.plan (slice fg p q) (slice M p q) := by
  have hρ : rowsAt (rowMargV M) p q = Spec.rowMarg (slice M p q) := funext fun r => rowMargV_apply M p q r
  have hγ : colsAt (colMargV M) p q = Spec.colMarg (slice M p q) := funext fun w => colMargV_apply M p q w
  have h0 : slice (plan0V fg M) p q = Spec.plan0 (slice fg p q) (slice M p q) := funext fun r => funext fun w => plan0V_apply fg M p q r w
  unfold planV Spec.plan
  rw [roundV_slice, roundV_slice, roundV_slice, hρ, hγ, h0]

/-- Entry (p, q) of a tile's scores is the score of the (p, q) slices of the similarity and mask arrays. -/
theorem scoreV_apply (fg M : FVec Ideal S16x16x37x51 .f32) (p q : Fin 16) :
    scoreV fg M (ix2 p q) = Spec.core (a := 37) (b := 51) (fun r w => fg (ix4 p q r w)) (fun r w => M (ix4 p q r w)) := by
  refine (sum_all _ p q).trans ?_
  refine Finset.sum_congr rfl fun r _ => Finset.sum_congr rfl fun w _ => ?_
  show fg (ix4 p q r w) * slice (planV fg M) p q r w * M (ix4 p q r w) = _
  rw [planV_slice]

end Cert.KernelIdeal.ScoreAt

end
-- ==== Proof.SimsMaskAt.lean ====
/-
  The similarity array and the mask array of a tile, read at an index.

  Entry (p, q, r, w) of the similarity array is the inner product of row 37 p + r of the images' row matrix with
  row w of caption o + q, where o is the tile's offset among the captions: the slice, the two re-layouts around the
  matrix product and the final transposition only move entries. Entry (p, q, r, w) of the mask is the row mask at
  (p, r) times the column mask at (o + q, w).
-/
import proofs.«110340_j62466004353037_1_alg».proof.Proof.Chunk
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SimsMaskAt

open Cert.KernelIdeal Cert.KernelIdeal.Gen Cert.KernelIdeal.Chunk Idealize.ShloMosaic Idealize.ShloMosaic.ValueIdx Idealize.SL.Sem

/-! ## The matrix product at an index

The product contracts the second axis of the 592 × 1024 matrix with the first axis of the 1024 × 816 matrix. At
output entry (i, j) and contraction position k the left factor is read at (i, k) and the right factor at (k, j);
the four coordinate facts are kept apart, one per operand axis. -/

/-- The left factor's row is the output row. -/
theorem lhs_row (i : Fin 592) (j : Fin 816) (k : dot_S592x1024_S1024x816_S592x816_1_0_0_1_n_n.contr.Idx) :
    (dot_S592x1024_S1024x816_S592x816_1_0_0_1_n_n.lhsIdx (ix2 i j) k 0).val = i.val := rfl

/-- The left factor's column is the contraction position. -/
theorem lhs_col (i : Fin 592) (j : Fin 816) (k : dot_S592x1024_S1024x816_S592x816_1_0_0_1_n_n.contr.Idx) :
    (dot_S592x1024_S1024x816_S592x816_1_0_0_1_n_n.lhsIdx (ix2 i j) k 1).val = (k ⟨0, by decide⟩).val :=
  dot_S592x1024_S1024x816_S592x816_1_0_0_1_n_n.lhsIdx_val_of_single rfl (ix2 i j) k

/-- The right factor's row is the contraction position. -/
theorem rhs_row (i : Fin 592) (j : Fin 816) (k : dot_S592x1024_S1024x816_S592x816_1_0_0_1_n_n.contr.Idx) :
    (dot_S592x1024_S1024x816_S592x816_1_0_0_1_n_n.rhsIdx (ix2 i j) k 0).val = (k ⟨0, by decide⟩).val :=
  dot_S592x1024_S1024x816_S592x816_1_0_0_1_n_n.rhsIdx_val_of_single rfl (ix2 i j) k

/-- The right factor's column is the output column. -/
theorem rhs_col (i : Fin 592) (j : Fin 816) (k : dot_S592x1024_S1024x816_S592x816_1_0_0_1_n_n.contr.Idx) :
    (dot_S592x1024_S1024x816_S592x816_1_0_0_1_n_n.rhsIdx (ix2 i j) k 1).val = j.val := rfl

/-- Entry (i, j) of the product accumulated into zero is ∑ d, A (i, d) * B (d, j): the sum over the one-axis
    contraction index is carried to a sum over d < 1024 along the bijection between the two. -/
theorem matmul_at (A : FVec Ideal S592x1024 .f32) (B : FVec Ideal S1024x816 .f32) (i : Fin 592) (j : Fin 816) :
    matmul dot_S592x1024_S1024x816_S592x816_1_0_0_1_n_n none A B (constant S592x816 .f32 0x00000000#32) (ix2 i j)
      = ∑ d : Fin 1024, A (ix2 i d) * B (ix2 d j) := by
  show FloatOps.matmul dot_S592x1024_S1024x816_S592x816_1_0_0_1_n_n none A B (constant S592x816 .f32 0x00000000#32) (ix2 i j) = _
  rw [Ideal.matmul_constant_zero_apply, ← Equiv.sum_comp (contrEquiv1 dot_S592x1024_S1024x816_S592x816_1_0_0_1_n_n 1024 rfl rfl).symm]
  refine Finset.sum_congr rfl fun d _ => ?_
  have c := contrEquiv1_symm_val dot_S592x1024_S1024x816_S592x816_1_0_0_1_n_n 1024 rfl rfl d
  have l : dot_S592x1024_S1024x816_S592x816_1_0_0_1_n_n.lhsIdx (ix2 i j) ((contrEquiv1 dot_S592x1024_S1024x816_S592x816_1_0_0_1_n_n 1024 rfl rfl).symm d) = ix2 i d := by
    funext ax
    apply Fin.ext
    match ax with
    | ⟨0, _⟩ => exact lhs_row i j _
    | ⟨1, _⟩ => exact (lhs_col i j _).trans c
  have r : dot_S592x1024_S1024x816_S592x816_1_0_0_1_n_n.rhsIdx (ix2 i j) ((contrEquiv1 dot_S592x1024_S1024x816_S592x816_1_0_0_1_n_n 1024 rfl rfl).symm d) = ix2 d j := by
    funext ax
    apply Fin.ext
    match ax with
    | ⟨0, _⟩ => exact (rhs_row i j _).trans c
    | ⟨1, _⟩ => exact rhs_col i j _
  rw [l, r]

/-! ## The re-layouts around the product -/

/-- The product's 592 × 816 result, regrouped as 16 × 37 × 16 × 51 and with its two middle axes exchanged, read at
    (p, q, r, w): the regrouped array is read at (p, r, q, w), whose row-major position
    ((37 p + r) 16 + q) 51 + w is that of (37 p + r, 51 q + w) in the 592 × 816 matrix. -/
theorem outLayout_apply (X : FVec Ideal S592x816 .f32) (p q : Fin 16) (r : Fin 37) (w : Fin 51) :
    transpose S16x16x37x51 [0, 2, 1, 3] (shapeCast S16x37x16x51 X shapeCasts_S592x816_S16x37x16x51)
        transposes_S16x37x16x51_p0_2_1_3_S16x16x37x51 (ix4 p q r w)
      = X (ix2 (⟨37 * p.val + r.val, by have := p.isLt; have := r.isLt; omega⟩ : Fin 592)
          (⟨51 * q.val + w.val, by have := q.isLt; have := w.isLt; omega⟩ : Fin 816)) := by
  refine (transpose_apply _ _ _ (ix4 p q r w) (ix4 p r q w) ?_).trans ?_
  · intro b
    match b with
    | ⟨0, _⟩ => rfl
    | ⟨1, _⟩ => rfl
    | ⟨2, _⟩ => rfl
    | ⟨3, _⟩ => rfl
  · refine shapeCast_apply _ _ _ _ ?_
    rw [Shape.rowMajor_val_two, Shape.rowMajor_val_four]
    show (37 * p.val + r.val) * 816 + (51 * q.val + w.val) = ((p.val * 37 + r.val) * 16 + q.val) * 51 + w.val
    omega

/-- The right factor at (d, 51 q + w): the transposition reads the 816 × 1024 matrix at (51 q + w, d), whose
    row-major position is that of (q, w, d) in the 16 × 51 × 1024 slice, and the slice at offset (o, 0, 0) reads
    the captions at (o + q, w, d). -/
theorem capsLayout_apply (o : Nat) (ho : o + 16 ≤ 128) (hs : S128x51x1024.Slices ![o, 0, 0] S16x51x1024)
    (caps : FVec Ideal S128x51x1024 .f32) (d : Fin 1024) (q : Fin 16) (w : Fin 51) :
    transpose S1024x816 [1, 0] (shapeCast S816x1024 (extractStridedSlice S16x51x1024 ![o, 0, 0] caps hs) shapeCasts_S16x51x1024_S816x1024)
        transposes_S816x1024_p1_0_S1024x816 (ix2 d (⟨51 * q.val + w.val, by have := q.isLt; have := w.isLt; omega⟩ : Fin 816))
      = caps (ix3 (⟨o + q.val, by have := q.isLt; omega⟩ : Fin 128) w d) := by
  refine (transpose_apply _ _ _ _ (ix2 (⟨51 * q.val + w.val, by have := q.isLt; have := w.isLt; omega⟩ : Fin 816) d) ?_).trans ?_
  · intro b
    match b with
    | ⟨0, _⟩ => rfl
    | ⟨1, _⟩ => rfl
  · refine (shapeCast_apply _ _ _ (ix3 q w d) ?_).trans ?_
    · rw [Shape.rowMajor_val_three, Shape.rowMajor_val_two]
      show (q.val * 51 + w.val) * 1024 + d.val = (51 * q.val + w.val) * 1024 + d.val
      omega
    · refine extractStridedSlice_apply _ _ _ (ix3 q w d) _ ?_
      intro a
      match a with
      | ⟨0, _⟩ => rfl
      | ⟨1, _⟩ => show w.val = 0 + w.val; omega
      | ⟨2, _⟩ => show d.val = 0 + d.val; omega

/-- The similarity array at (p, q, r, w): the inner product of image row 37 p + r with row w of caption o + q. -/
theorem simsOf_apply (o : Nat) (ho : o + 16 ≤ 128) (hs : S128x51x1024.Slices ![o, 0, 0] S16x51x1024)
    (caps : FVec Ideal S128x51x1024 .f32) (imgs : FVec Ideal S592x1024 .f32) (p q : Fin 16) (r : Fin 37) (w : Fin 51) :
    simsOf ![o, 0, 0] hs caps imgs (ix4 p q r w)
      = ∑ d : Fin 1024, imgs (ix2 (⟨37 * p.val + r.val, by have := p.isLt; have := r.isLt; omega⟩ : Fin 592) d)
          * caps (ix3 (⟨o + q.val, by have := q.isLt; omega⟩ : Fin 128) w d) := by
  unfold simsOf
  refine (outLayout_apply _ p q r w).trans ?_
  refine (matmul_at imgs _ _ _).trans ?_
  exact Finset.sum_congr rfl fun d _ => congrArg (imgs _ * ·) (capsLayout_apply o ho hs caps d q w)

/-! ## The mask -/

/-- The row mask, given unit axes in places 1 and 3 and repeated along them, read at (p, q, r, w): the 16 × 1 × 37 × 1
    array is read at (p, 0, r, 0), whose row-major position is that of (p, r). -/
theorem rowMask_apply (rm : FVec Ideal S16x37 .f32) (p q : Fin 16) (r : Fin 37) (w : Fin 51) :
    broadcastTo S16x16x37x51 (shapeCast S16x1x37x1 rm shapeCasts_S16x37_S16x1x37x1) broadcasts_S16x1x37x1_S16x16x37x51 (ix4 p q r w)
      = rm (ix2 p r) := by
  refine (broadcastTo_apply _ _ (ix4 p q r w) (ix4 p (0 : Fin 1) r (0 : Fin 1)) ?_).trans ?_
  · intro a
    match a with
    | ⟨0, _⟩ => rfl
    | ⟨1, _⟩ => rfl
    | ⟨2, _⟩ => rfl
    | ⟨3, _⟩ => rfl
  · refine shapeCast_apply _ _ _ (ix2 p r) ?_
    rw [Shape.rowMajor_val_two, Shape.rowMajor_val_four]
    show p.val * 37 + r.val = ((p.val * 1 + 0) * 37 + r.val) * 1 + 0
    omega

/-- The column mask of the 16 captions from offset o, given unit axes in places 0 and 2 and repeated along them, read
    at (p, q, r, w): the 1 × 16 × 1 × 51 array is read at (0, q, 0, w), whose row-major position is that of (q, w) in
    the slice, and the slice at offset (o, 0) reads the column mask at (o + q, w). -/
theorem colMask_apply (o : Nat) (ho : o + 16 ≤ 128) (hs : S128x51.Slices ![o, 0] S16x51)
    (wm : FVec Ideal S128x51 .f32) (p q : Fin 16) (r : Fin 37) (w : Fin 51) :
    broadcastTo S16x16x37x51 (shapeCast S1x16x1x51 (extractStridedSlice S16x51 ![o, 0] wm hs) shapeCasts_S16x51_S1x16x1x51)
        broadcasts_S1x16x1x51_S16x16x37x51 (ix4 p q r w)
      = wm (ix2 (⟨o + q.val, by have := q.isLt; omega⟩ : Fin 128) w) := by
  refine (broadcastTo_apply _ _ (ix4 p q r w) (ix4 (0 : Fin 1) q (0 : Fin 1) w) ?_).trans ?_
  · intro a
    match a with
    | ⟨0, _⟩ => rfl
    | ⟨1, _⟩ => rfl
    | ⟨2, _⟩ => rfl
    | ⟨3, _⟩ => rfl
  · refine (shapeCast_apply _ _ _ (ix2 q w) ?_).trans ?_
    · rw [Shape.rowMajor_val_two, Shape.rowMajor_val_four]
      show q.val * 51 + w.val = ((0 * 16 + q.val) * 1 + 0) * 51 + w.val
      omega
    · refine extractStridedSlice_apply _ _ _ (ix2 q w) _ ?_
      intro a
      match a with
      | ⟨0, _⟩ => rfl
      | ⟨1, _⟩ => show w.val = 0 + w.val; omega

/-- The mask at (p, q, r, w): the row mask at (p, r) times the column mask at (o + q, w). -/
theorem maskOf_apply (o : Nat) (ho : o + 16 ≤ 128) (hs : S128x51.Slices ![o, 0] S16x51)
    (rm : FVec Ideal S16x37 .f32) (wm : FVec Ideal S128x51 .f32) (p q : Fin 16) (r : Fin 37) (w : Fin 51) :
    maskOf ![o, 0] hs rm wm (ix4 p q r w) = rm (ix2 p r) * wm (ix2 (⟨o + q.val, by have := q.isLt; omega⟩ : Fin 128) w) := by
  unfold maskOf
  rw [mulf_apply, rowMask_apply rm p q r w, colMask_apply o ho hs wm p q r w]

end Cert.KernelIdeal.SimsMaskAt

end
-- ==== Proof.UnitAt.lean ====
/-
  The normalised token rows the kernel forms from its loaded blocks, read at an index.

  Row 37 p + r of the images' row matrix is token row r of image p (the class token for r = 0, else region
  token r - 1 shifted by ε) divided by its Euclidean length; likewise row w of caption t.
-/
import proofs.«110340_j62466004353037_1_alg».proof.Proof.Chunk
import proofs.«110340_j62466004353037_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UnitAt

open Cert.KernelIdeal Cert.KernelIdeal.Gen Cert.KernelIdeal.Chunk Idealize.ShloMosaic Idealize.ShloMosaic.ValueIdx Idealize.SL.Sem

/-! ## The images -/

/-- The 37 token rows of each of the 16 images before normalisation: the class token, then the region tokens shifted by ε. -/
abbrev imgToks (x0 : Vec Ideal S16x1024 .f32) (x1 : Vec Ideal S16x36x1024 .f32) : FVec Ideal S16x37x1024 .f32 :=
  concatenate S16x37x1024 1 [⟨S16x1x1024, shapeCast S16x1x1024 x0 shapeCasts_S16x1024_S16x1x1024⟩,
    ⟨S16x36x1024, addf x1 (broadcast S16x36x1024 (Scalar.ofBits .f32 0x358637BD#32))⟩]
    concatenates_S16x1x1024_S16x36x1024_S16x37x1024_d1

/-- Token row r of image p is the specification's: the class token at r = 0, else region token r - 1 plus ε. -/
theorem imgToks_apply (x0 : Vec Ideal S16x1024 .f32) (x1 : Vec Ideal S16x36x1024 .f32) (p : Fin 16) (r : Fin 37) (d : Fin 1024) :
    imgToks x0 x1 (ix3 p r d) = Spec.toks (n := 36) (fun d => x0 (ix2 p d)) (fun k d => x1 (ix3 p k d)) r d := by
  unfold Spec.toks
  by_cases h : r.val = 0
  · rw [dif_pos h]
    refine (concatenate_pair_apply_left (t := S16x37x1024) (s₁ := S16x1x1024) (s₂ := S16x36x1024) (1 : Fin 3) _ _ _ (ix3 p r d) rfl
      (ix3 p (0 : Fin 1) d) ?_).trans ?_
    · intro b
      match b with
      | ⟨0, _⟩ => rfl
      | ⟨1, _⟩ => exact h.symm
      | ⟨2, _⟩ => rfl
    · refine shapeCast_apply x0 _ (ix3 p (0 : Fin 1) d) (ix2 p d) ?_
      rw [Shape.rowMajor_val_two, Shape.rowMajor_val_three]
      show p.val * 1024 + d.val = (p.val * 1 + 0) * 1024 + d.val
      omega
  · rw [dif_neg h]
    refine (concatenate_pair_apply_right (t := S16x37x1024) (s₁ := S16x1x1024) (s₂ := S16x36x1024) (1 : Fin 3) _ _ _ (ix3 p r d) rfl rfl
      (ix3 p (⟨r.val - 1, by have := r.isLt; omega⟩ : Fin 36) d) ?_ ?_).trans ?_
    · intro b hb
      match b with
      | ⟨0, _⟩ => rfl
      | ⟨1, _⟩ => exact absurd rfl hb
      | ⟨2, _⟩ => rfl
    · show r.val - 1 + 1 = r.val
      omega
    · rfl

/-- A load through the whole-array rectangle reads the array. -/
theorem ld_r0_0 (x0 : Vec Ideal S16x1024 .f32) : View.ld x0 r0_0 = x0 :=
  View.ld_unit_zero (S := S16x1024) (funext fun a => match a with | ⟨0, _⟩ => rfl | ⟨1, _⟩ => rfl) _ x0

/-- Likewise for the region tokens' block. -/
theorem ld_r0_1 (x1 : Vec Ideal S16x36x1024 .f32) : View.ld x1 r0_1 = x1 :=
  View.ld_unit_zero (S := S16x36x1024) (funext fun a => match a with | ⟨0, _⟩ => rfl | ⟨1, _⟩ => rfl | ⟨2, _⟩ => rfl) _ x1

/-- The squared length of every token row of every image. -/
abbrev imgSq (x0 : Vec Ideal S16x1024 .f32) (x1 : Vec Ideal S16x36x1024 .f32) : FVec Ideal S16x37 .f32 :=
  multiReduction .add [2] S16x37 (mulf (imgToks x0 x1) (imgToks x0 x1)) 0x00000000#32 reduces_S16x37x1024_S16x37 (.inl rfl) rfl

/-- The images' row matrix is the token rows, each divided by the square root of its squared length, laid out as 592 rows. -/
theorem imgsUnit_eq (x0 : Vec Ideal S16x1024 .f32) (x1 : Vec Ideal S16x36x1024 .f32) :
    imgsUnit x0 x1 = shapeCast S592x1024 (divf (imgToks x0 x1) (broadcastTo S16x37x1024
      (sqrt (shapeCast S16x37x1 (imgSq x0 x1) shapeCasts_S16x37_S16x37x1)) broadcasts_S16x37x1_S16x37x1024))
      shapeCasts_S16x37x1024_S592x1024 := by
  show k0_pay5 (View.ld x0 r0_0) (View.ld x1 r0_1) = _
  rw [ld_r0_0, ld_r0_1]
  rfl

/-- The squared length of token row r of image p is the sum of the squares of the specification's row. -/
theorem imgSq_apply (x0 : Vec Ideal S16x1024 .f32) (x1 : Vec Ideal S16x36x1024 .f32) (p : Fin 16) (r : Fin 37) :
    imgSq x0 x1 (ix2 p r) = ∑ k : Fin 1024, Spec.toks (n := 36) (fun d => x0 (ix2 p d)) (fun k d => x1 (ix3 p k d)) r k
      * Spec.toks (n := 36) (fun d => x0 (ix2 p d)) (fun k d => x1 (ix3 p k d)) r k := by
  refine (Ideal.multiReduction_add_single _ _ reduces_S16x37x1024_S16x37 _ _ (ix2 p r)).trans ?_
  show (∑ k : Fin 1024, mulf (imgToks x0 x1) (imgToks x0 x1) (reduces_S16x37x1024_S16x37.lift (ix2 p r) k)) = _
  refine Finset.sum_congr rfl fun k _ => ?_
  have e : reduces_S16x37x1024_S16x37.lift (ix2 p r) k = ix3 p r k :=
    funext fun a => match a with
      | ⟨0, _⟩ => Fin.ext rfl
      | ⟨1, _⟩ => Fin.ext rfl
      | ⟨2, _⟩ => Fin.ext rfl
  rw [e]
  show imgToks x0 x1 (ix3 p r k) * imgToks x0 x1 (ix3 p r k) = _
  rw [imgToks_apply]

/-- Row 37 p + r of the images' row matrix is normalised token row r of image p. -/
theorem imgsUnit_apply (x0 : Vec Ideal S16x1024 .f32) (x1 : Vec Ideal S16x36x1024 .f32) (p : Fin 16) (r : Fin 37) (d : Fin 1024) :
    imgsUnit x0 x1 (ix2 (⟨37 * p.val + r.val, by have := p.isLt; have := r.isLt; omega⟩ : Fin 592) d)
      = Spec.unit (Spec.toks (n := 36) (fun d => x0 (ix2 p d)) (fun k d => x1 (ix3 p k d))) r d := by
  rw [imgsUnit_eq]
  refine (shapeCast_apply _ _ _ (ix3 p r d) ?_).trans ?_
  · rw [Shape.rowMajor_val_two, Shape.rowMajor_val_three]
    show (p.val * 37 + r.val) * 1024 + d.val = (37 * p.val + r.val) * 1024 + d.val
    omega
  · show Ideal.div (imgToks x0 x1 (ix3 p r d)) _ = _
    unfold Spec.unit
    rw [imgToks_apply]
    refine congrArg (Ideal.div _) ?_
    refine (broadcastTo_apply _ _ (ix3 p r d) (ix3 p r (0 : Fin 1)) ?_).trans ?_
    · intro a
      match a with
      | ⟨0, _⟩ => rfl
      | ⟨1, _⟩ => rfl
      | ⟨2, _⟩ => rfl
    · show Ideal.sqrt _ = Ideal.sqrt _
      refine congrArg Ideal.sqrt ?_
      refine (shapeCast_apply _ _ (ix3 p r (0 : Fin 1)) (ix2 p r) ?_).trans (imgSq_apply x0 x1 p r)
      rw [Shape.rowMajor_val_two, Shape.rowMajor_val_three]
      show p.val * 37 + r.val = (p.val * 37 + r.val) * 1 + 0
      omega

/-! ## The captions -/

/-- The 51 token rows of each of the 128 captions before normalisation: the class token, then the word tokens shifted by ε. -/
abbrev capToks (x2 : Vec Ideal S128x1024 .f32) (x3 : Vec Ideal S128x50x1024 .f32) : FVec Ideal S128x51x1024 .f32 :=
  concatenate S128x51x1024 1 [⟨S128x1x1024, shapeCast S128x1x1024 x2 shapeCasts_S128x1024_S128x1x1024⟩,
    ⟨S128x50x1024, addf x3 (broadcast S128x50x1024 (Scalar.ofBits .f32 0x358637BD#32))⟩]
    concatenates_S128x1x1024_S128x50x1024_S128x51x1024_d1

/-- Token row w of caption t is the specification's: the class token at w = 0, else word token w - 1 plus ε. -/
theorem capToks_apply (x2 : Vec Ideal S128x1024 .f32) (x3 : Vec Ideal S128x50x1024 .f32) (t : Fin 128) (w : Fin 51) (d : Fin 1024) :
    capToks x2 x3 (ix3 t w d) = Spec.toks (n := 50) (fun d => x2 (ix2 t d)) (fun k d => x3 (ix3 t k d)) w d := by
  unfold Spec.toks
  by_cases h : w.val = 0
  · rw [dif_pos h]
    refine (concatenate_pair_apply_left (t := S128x51x1024) (s₁ := S128x1x1024) (s₂ := S128x50x1024) (1 : Fin 3) _ _ _ (ix3 t w d) rfl
      (ix3 t (0 : Fin 1) d) ?_).trans ?_
    · intro b
      match b with
      | ⟨0, _⟩ => rfl
      | ⟨1, _⟩ => exact h.symm
      | ⟨2, _⟩ => rfl
    · refine shapeCast_apply x2 _ (ix3 t (0 : Fin 1) d) (ix2 t d) ?_
      rw [Shape.rowMajor_val_two, Shape.rowMajor_val_three]
      show t.val * 1024 + d.val = (t.val * 1 + 0) * 1024 + d.val
      omega
  · rw [dif_neg h]
    refine (concatenate_pair_apply_right (t := S128x51x1024) (s₁ := S128x1x1024) (s₂ := S128x50x1024) (1 : Fin 3) _ _ _ (ix3 t w d) rfl rfl
      (ix3 t (⟨w.val - 1, by have := w.isLt; omega⟩ : Fin 50) d) ?_ ?_).trans ?_
    · intro b hb
      match b with
      | ⟨0, _⟩ => rfl
      | ⟨1, _⟩ => exact absurd rfl hb
      | ⟨2, _⟩ => rfl
    · show w.val - 1 + 1 = w.val
      omega
    · rfl

/-- A load through the whole-array rectangle reads the array: the captions' class tokens. -/
theorem ld_r0_2 (x2 : Vec Ideal S128x1024 .f32) : View.ld x2 r0_2 = x2 :=
  View.ld_unit_zero (S := S128x1024) (funext fun a => match a with | ⟨0, _⟩ => rfl | ⟨1, _⟩ => rfl) _ x2

/-- Likewise for the word tokens' block. -/
theorem ld_r0_3 (x3 : Vec Ideal S128x50x1024 .f32) : View.ld x3 r0_3 = x3 :=
  View.ld_unit_zero (S := S128x50x1024) (funext fun a => match a with | ⟨0, _⟩ => rfl | ⟨1, _⟩ => rfl | ⟨2, _⟩ => rfl) _ x3

/-- The squared length of every token row of every caption. -/
abbrev capSq (x2 : Vec Ideal S128x1024 .f32) (x3 : Vec Ideal S128x50x1024 .f32) : FVec Ideal S128x51 .f32 :=
  multiReduction .add [2] S128x51 (mulf (capToks x2 x3) (capToks x2 x3)) 0x00000000#32 reduces_S128x51x1024_S128x51 (.inl rfl) rfl

/-- The captions' rows are the token rows, each divided by the square root of its squared length. -/
theorem capsUnit_eq (x2 : Vec Ideal S128x1024 .f32) (x3 : Vec Ideal S128x50x1024 .f32) :
    capsUnit x2 x3 = divf (capToks x2 x3) (broadcastTo S128x51x1024
      (sqrt (shapeCast S128x51x1 (capSq x2 x3) shapeCasts_S128x51_S128x51x1)) broadcasts_S128x51x1_S128x51x1024) := by
  show k0_pay2 (View.ld x2 r0_2) (View.ld x3 r0_3) = _
  rw [ld_r0_2, ld_r0_3]
  rfl

/-- The squared length of token row w of caption t is the sum of the squares of the specification's row. -/
theorem capSq_apply (x2 : Vec Ideal S128x1024 .f32) (x3 : Vec Ideal S128x50x1024 .f32) (t : Fin 128) (w : Fin 51) :
    capSq x2 x3 (ix2 t w) = ∑ k : Fin 1024, Spec.toks (n := 50) (fun d => x2 (ix2 t d)) (fun k d => x3 (ix3 t k d)) w k
      * Spec.toks (n := 50) (fun d => x2 (ix2 t d)) (fun k d => x3 (ix3 t k d)) w k := by
  refine (Ideal.multiReduction_add_single _ _ reduces_S128x51x1024_S128x51 _ _ (ix2 t w)).trans ?_
  show (∑ k : Fin 1024, mulf (capToks x2 x3) (capToks x2 x3) (reduces_S128x51x1024_S128x51.lift (ix2 t w) k)) = _
  refine Finset.sum_congr rfl fun k _ => ?_
  have e : reduces_S128x51x1024_S128x51.lift (ix2 t w) k = ix3 t w k :=
    funext fun a => match a with
      | ⟨0, _⟩ => Fin.ext rfl
      | ⟨1, _⟩ => Fin.ext rfl
      | ⟨2, _⟩ => Fin.ext rfl
  rw [e]
  show capToks x2 x3 (ix3 t w k) * capToks x2 x3 (ix3 t w k) = _
  rw [capToks_apply]

/-- Row w of caption t is normalised token row w of caption t. -/
theorem capsUnit_apply (x2 : Vec Ideal S128x1024 .f32) (x3 : Vec Ideal S128x50x1024 .f32) (t : Fin 128) (w : Fin 51) (d : Fin 1024) :
    capsUnit x2 x3 (ix3 t w d)
      = Spec.unit (Spec.toks (n := 50) (fun d => x2 (ix2 t d)) (fun k d => x3 (ix3 t k d))) w d := by
  rw [capsUnit_eq]
  show Ideal.div (capToks x2 x3 (ix3 t w d)) _ = _
  unfold Spec.unit
  rw [capToks_apply]
  refine congrArg (Ideal.div _) ?_
  refine (broadcastTo_apply _ _ (ix3 t w d) (ix3 t w (0 : Fin 1)) ?_).trans ?_
  · intro a
    match a with
    | ⟨0, _⟩ => rfl
    | ⟨1, _⟩ => rfl
    | ⟨2, _⟩ => rfl
  · show Ideal.sqrt _ = Ideal.sqrt _
    refine congrArg Ideal.sqrt ?_
    refine (shapeCast_apply _ _ (ix3 t w (0 : Fin 1)) (ix2 t w) ?_).trans (capSq_apply x2 x3 t w)
    rw [Shape.rowMajor_val_two, Shape.rowMajor_val_three]
    show t.val * 51 + w.val = (t.val * 51 + w.val) * 1 + 0
    omega

end Cert.KernelIdeal.UnitAt

end
-- ==== Proof.TileAt.lean ====
/-
  One tile of the kernel's output block, read at a pair.

  Entry (p, q) of the tile at caption offset o is the score `Spec.pair` of image p of the loaded image blocks and
  caption o + q of the loaded caption blocks, with the row mask of image p and the column mask of caption o + q:
  the similarity array's slice at (p, q) is the matrix of inner products of the two items' normalised rows, the
  mask array's slice is the product of the two mask rows, and the tile's score is `Spec.core` of the two slices.
-/
import proofs.«110340_j62466004353037_1_alg».proof.Proof.ScoreAt
import proofs.«110340_j62466004353037_1_alg».proof.Proof.SimsMaskAt
import proofs.«110340_j62466004353037_1_alg».proof.Proof.UnitAt

noncomputable section

namespace Cert.KernelIdeal.TileAt

open Cert.KernelIdeal Cert.KernelIdeal.Gen Cert.KernelIdeal.Chunk Idealize.ShloMosaic Idealize.ShloMosaic.ValueIdx Idealize.SL.Sem

/-- The row mask's block as the tile uses it is the loaded block itself: the load is of the whole block and the
    shape cast is to the same shape. -/
theorem rowMask_eq (x4 : Vec Ideal S16x37 .f32) : k0_pay3 (View.ld x4 r0_4) = x4 := by
  have e : View.ld x4 r0_4 = x4 :=
    View.ld_unit_zero (S := S16x37) (funext fun a => match a with | ⟨0, _⟩ => rfl | ⟨1, _⟩ => rfl) _ x4
  rw [e]
  exact shapeCast_self x4 _

/-- Likewise the column mask's block. -/
theorem colMask_eq (x5 : Vec Ideal S128x51 .f32) : k0_pay4 (View.ld x5 r0_5) = x5 := by
  have e : View.ld x5 r0_5 = x5 :=
    View.ld_unit_zero (S := S128x51) (funext fun a => match a with | ⟨0, _⟩ => rfl | ⟨1, _⟩ => rfl) _ x5
  rw [e]
  exact shapeCast_self x5 _

/-- Entry (p, q) of the tile at offset o is the score of image p against caption o + q. -/
theorem chunk_apply (o : Nat) (ho : o + 16 ≤ 128) (h3 : S128x51x1024.Slices ![o, 0, 0] S16x51x1024) (h2 : S128x51.Slices ![o, 0] S16x51)
    (x0 : Vec Ideal S16x1024 .f32) (x1 : Vec Ideal S16x36x1024 .f32) (x2 : Vec Ideal S128x1024 .f32) (x3 : Vec Ideal S128x50x1024 .f32)
    (x4 : Vec Ideal S16x37 .f32) (x5 : Vec Ideal S128x51 .f32) (p q : Fin 16) :
    chunk ![o, 0, 0] h3 ![o, 0] h2 (capsUnit x2 x3) (k0_pay3 (View.ld x4 r0_4)) (k0_pay4 (View.ld x5 r0_5)) (imgsUnit x0 x1) (ix2 p q)
      = Spec.pair (fun d => x0 (ix2 p d)) (fun k d => x1 (ix3 p k d))
          (fun d => x2 (ix2 (⟨o + q.val, by have := q.isLt; omega⟩ : Fin 128) d)) (fun k d => x3 (ix3 (⟨o + q.val, by have := q.isLt; omega⟩ : Fin 128) k d))
          (fun r => x4 (ix2 p r)) (fun w => x5 (ix2 (⟨o + q.val, by have := q.isLt; omega⟩ : Fin 128) w)) := by
  unfold chunk
  rw [ScoreAt.scoreV_apply]
  unfold Spec.pair
  congr 1
  · -- the similarity slice: inner products of the two items' normalised rows
    funext r w
    rw [SimsMaskAt.simsOf_apply o ho h3]
    unfold Spec.sims
    refine Finset.sum_congr rfl fun d _ => ?_
    rw [UnitAt.imgsUnit_apply, UnitAt.capsUnit_apply]
  · -- the mask slice: the product of the two mask rows
    funext r w
    rw [SimsMaskAt.maskOf_apply o ho h2, rowMask_eq, colMask_eq]

end Cert.KernelIdeal.TileAt

end
-- ==== Proof.HostMask.lean ====
/-
  The two mask arrays the kernel's program computes before its region, read at an index.

  The row mask at (i, r) is 1 when r < len_i + 1 and 0 otherwise, as signed 32-bit words converted to a number:
  `Spec.lenMask` of image i's length at r; the column mask likewise from the captions' lengths.
-/
import proofs.«110340_j62466004353037_1_alg».proof.Proof.Gen.KernelIdeal.Frame
import proofs.«110340_j62466004353037_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.HostMask

open Cert.KernelIdeal Cert.KernelIdeal.Gen Idealize.ShloMosaic Idealize.ShloMosaic.ValueIdx Idealize.SL.Sem Idealize.ShloMosaic.TcCoe

/-- The positions 0 … 36 laid along the second axis of a 128 × 37 array: at (i, r) the word r. -/
theorem iota37_apply (i : Fin 128) (r : Fin 37) :
    (broadcastInDim S128x37 ![0, 1] bcast_S1x37_S128x37_0_1
      (broadcastInDim S1x37 ![1] bcast_S37_S1x37_1 (iotaInDim S37 32 0)) : S128x37.Idx → BitVec 32) (ix2 i r)
      = BitVec.ofNat 32 r.val := by
  refine (broadcastInDim_apply _ _ _ (ix2 i r) (ix2 (0 : Fin 1) r)
    (fun a => match a with | ⟨0, _⟩ => rfl | ⟨1, _⟩ => rfl)).trans ?_
  refine (broadcastInDim_apply _ _ _ (ix2 (0 : Fin 1) r) (ix1 r)
    (fun a => match a with | ⟨0, _⟩ => rfl)).trans ?_
  rfl

/-- The positions 0 … 50 laid along the second axis of a 128 × 51 array: at (t, w) the word w. -/
theorem iota51_apply (t : Fin 128) (w : Fin 51) :
    (broadcastInDim S128x51 ![0, 1] bcast_S1x51_S128x51_0_1
      (broadcastInDim S1x51 ![1] bcast_S51_S1x51_1 (iotaInDim S51 32 0)) : S128x51.Idx → BitVec 32) (ix2 t w)
      = BitVec.ofNat 32 w.val := by
  refine (broadcastInDim_apply _ _ _ (ix2 t w) (ix2 (0 : Fin 1) w)
    (fun a => match a with | ⟨0, _⟩ => rfl | ⟨1, _⟩ => rfl)).trans ?_
  refine (broadcastInDim_apply _ _ _ (ix2 (0 : Fin 1) w) (ix1 w)
    (fun a => match a with | ⟨0, _⟩ => rfl)).trans ?_
  rfl

/-- The lengths plus one: at item i the word len_i + 1. -/
theorem lenSucc_apply (len : S128.Idx → BitVec 32) (i : Fin 128) :
    (addi len (broadcastInDim S128 ![] bcast_S_S128 (constantI S_ 32 1#32)) : S128.Idx → BitVec 32) (ix1 i)
      = IntOp.addi (len (ix1 i)) 1#32 := by
  show IntOp.addi (len (ix1 i)) ((broadcastInDim S128 ![] bcast_S_S128 (constantI S_ 32 1#32) : S128.Idx → BitVec 32) (ix1 i)) = _
  refine congrArg (IntOp.addi (len (ix1 i))) ?_
  exact broadcastInDim_apply _ _ _ (ix1 i) ix0 (fun a => a.elim0)

/-- A column of 128 words laid along the first axis of a 128 × 37 array: at (i, r) the word of item i. -/
theorem col37_apply (x : S128.Idx → BitVec 32) (i : Fin 128) (r : Fin 37) :
    (broadcastInDim S128x37 ![0, 1] bcast_S128x1_S128x37_0_1
      (broadcastInDim S128x1 ![0] bcast_S128_S128x1_0 x) : S128x37.Idx → BitVec 32) (ix2 i r) = x (ix1 i) := by
  refine (broadcastInDim_apply _ _ _ (ix2 i r) (ix2 i (0 : Fin 1))
    (fun a => match a with | ⟨0, _⟩ => rfl | ⟨1, _⟩ => rfl)).trans ?_
  exact broadcastInDim_apply _ _ _ (ix2 i (0 : Fin 1)) (ix1 i)
    (fun a => match a with | ⟨0, _⟩ => rfl)

/-- A column of 128 words laid along the first axis of a 128 × 51 array: at (t, w) the word of item t. -/
theorem col51_apply (x : S128.Idx → BitVec 32) (t : Fin 128) (w : Fin 51) :
    (broadcastInDim S128x51 ![0, 1] bcast_S128x1_S128x51_0_1
      (broadcastInDim S128x1 ![0] bcast_S128_S128x1_0 x) : S128x51.Idx → BitVec 32) (ix2 t w) = x (ix1 t) := by
  refine (broadcastInDim_apply _ _ _ (ix2 t w) (ix2 t (0 : Fin 1))
    (fun a => match a with | ⟨0, _⟩ => rfl | ⟨1, _⟩ => rfl)).trans ?_
  exact broadcastInDim_apply _ _ _ (ix2 t (0 : Fin 1)) (ix1 t)
    (fun a => match a with | ⟨0, _⟩ => rfl)

variable (m : (ℓ : Loc nD τ sig) → Buf (Elt Ideal) ℓ)

/-- The row mask as the region finds it. -/
theorem rmask_apply (c : Dev nD) (i : Fin 128) (r : Fin 37) :
    (V m c main_v10 : S128x37.Idx → EReal) (ix2 i r) = Spec.lenMask ((m ((c : Thread nD τ).loc main_arg4) : S128.Idx → BitVec 32) (ix1 i)) r.val := by
  have e : @Eq (S128x37.Idx → EReal) (V m c main_v10)
      (uitofp (F := Ideal) .f32 (cmpi .slt
          (broadcastInDim S128x37 ![0, 1] bcast_S1x37_S128x37_0_1
            (broadcastInDim S1x37 ![1] bcast_S37_S1x37_1 (iotaInDim S37 32 0)))
          (broadcastInDim S128x37 ![0, 1] bcast_S128x1_S128x37_0_1
            (broadcastInDim S128x1 ![0] bcast_S128_S128x1_0
              (addi (m ((c : Thread nD τ).loc main_arg4) : S128.Idx → BitVec 32)
                (broadcastInDim S128 ![] bcast_S_S128 (constantI S_ 32 1#32))))))) := by
    dsimp only [Gen.V, Gen.hostOps0]
    after_results
  rw [e]
  show FloatOps.uitofp (F := Ideal) .f32 (IntOp.cmpi .slt _ _) = FloatOps.uitofp (F := Ideal) .f32 (IntOp.cmpi .slt _ _)
  rw [iota37_apply i r, col37_apply _ i r, lenSucc_apply _ i]

/-- The column mask as the region finds it. -/
theorem wmask_apply (c : Dev nD) (t : Fin 128) (w : Fin 51) :
    (V m c main_v17 : S128x51.Idx → EReal) (ix2 t w) = Spec.lenMask ((m ((c : Thread nD τ).loc main_arg5) : S128.Idx → BitVec 32) (ix1 t)) w.val := by
  have e : @Eq (S128x51.Idx → EReal) (V m c main_v17)
      (uitofp (F := Ideal) .f32 (cmpi .slt
          (broadcastInDim S128x51 ![0, 1] bcast_S1x51_S128x51_0_1
            (broadcastInDim S1x51 ![1] bcast_S51_S1x51_1 (iotaInDim S51 32 0)))
          (broadcastInDim S128x51 ![0, 1] bcast_S128x1_S128x51_0_1
            (broadcastInDim S128x1 ![0] bcast_S128_S128x1_0
              (addi (m ((c : Thread nD τ).loc main_arg5) : S128.Idx → BitVec 32)
                (broadcastInDim S128 ![] bcast_S_S128 (constantI S_ 32 1#32))))))) := by
    dsimp only [Gen.V, Gen.hostOps0]
    after_results
  rw [e]
  show FloatOps.uitofp (F := Ideal) .f32 (IntOp.cmpi .slt _ _) = FloatOps.uitofp (F := Ideal) .f32 (IntOp.cmpi .slt _ _)
  rw [iota51_apply t w, col51_apply _ t w, lenSucc_apply _ t]

end Cert.KernelIdeal.HostMask

end
-- ==== Proof.KernelValue.lean ====
/-
  The kernel's result array: the 128 × 128 array of scores.

  At grid point t the kernel holds images 16 t … 16 t + 15 and all the captions; the block it writes back is rows
  16 t … 16 t + 15 of the score array (eight tiles side by side, each entry the score of its pair). The eight
  grid points' blocks tile the whole array, so after the run the array is `Spec.scores` of the argument arrays.
-/
import proofs.«110340_j62466004353037_1_alg».proof.Proof.TileAt
import proofs.«110340_j62466004353037_1_alg».proof.Proof.HostMask
import proofs.«110340_j62466004353037_1_alg».proof.Proof.Gen.KernelIdeal.Value

noncomputable section

namespace Cert.KernelIdeal.KernelValue

open Cert.KernelIdeal Cert.KernelIdeal.Gen Cert.KernelIdeal.Chunk Idealize.ShloMosaic Idealize.ShloMosaic.ValueIdx Idealize.SL.Sem Idealize.ShloMosaic.TcCoe Idealize.ShloMosaic.Pipeline

variable (m : (ℓ : Loc nD τ sig) → Buf (Elt Ideal) ℓ) (ρ : Dev nD → PrngReg)

/-- The score at an index of the 16 × 128 block: the image of its row against the caption of its column. -/
abbrev blockScore (x0 : Vec Ideal S16x1024 .f32) (x1 : Vec Ideal S16x36x1024 .f32) (x2 : Vec Ideal S128x1024 .f32) (x3 : Vec Ideal S128x50x1024 .f32)
    (x4 : Vec Ideal S16x37 .f32) (x5 : Vec Ideal S128x51 .f32) : S16x128.Idx → EReal := fun y =>
  Spec.pair (fun d => x0 (ix2 (y 0) d)) (fun k d => x1 (ix3 (y 0) k d)) (fun d => x2 (ix2 (y 1) d)) (fun k d => x3 (ix3 (y 1) k d))
    (fun r => x4 (ix2 (y 0) r)) (fun w => x5 (ix2 (y 1) w))

/-- The tile at caption offset o, read at its own index x, is the block's score at the index x is stored to:
    row x 0 and column o + x 1. -/
theorem tile_at (o : Nat) (ho : o + 16 ≤ 128) (h3 : S128x51x1024.Slices ![o, 0, 0] S16x51x1024) (h2 : S128x51.Slices ![o, 0] S16x51)
    (inb : ∀ a, (![0, o] : Fin 2 → Nat) a + S16x16.size a ≤ S16x128.size a)
    (x0 : Vec Ideal S16x1024 .f32) (x1 : Vec Ideal S16x36x1024 .f32) (x2 : Vec Ideal S128x1024 .f32) (x3 : Vec Ideal S128x50x1024 .f32)
    (x4 : Vec Ideal S16x37 .f32) (x5 : Vec Ideal S128x51 .f32) (x : S16x16.Idx) :
    chunk ![o, 0, 0] h3 ![o, 0] h2 (capsUnit x2 x3) (k0_pay3 (View.ld x4 r0_4)) (k0_pay4 (View.ld x5 r0_5)) (imgsUnit x0 x1) x
      = blockScore x0 x1 x2 x3 x4 x5 ((Rect.unit (s := S16x128) ![0, o] S16x16.size inb).emb x) := by
  have hx1 : (x 1).val < 16 := (x 1).isLt
  have e0 : (Rect.unit (s := S16x128) ![0, o] S16x16.size inb).emb x 0 = x 0 :=
    Fin.ext (by show 0 + 1 * (x 0).val = (x 0).val; omega)
  have e1 : (Rect.unit (s := S16x128) ![0, o] S16x16.size inb).emb x 1 = (⟨o + (x 1).val, by omega⟩ : Fin 128) :=
    Fin.ext (by show o + 1 * (x 1).val = o + (x 1).val; omega)
  show _ = Spec.pair _ _ _ _ _ _
  rw [e0, e1]
  exact (congrArg _ (eq_ix2 x)).trans (TileAt.chunk_apply o ho h3 h2 x0 x1 x2 x3 x4 x5 (x 0) (x 1))

/-- The block written at a grid point, at row p and column t: the score of the p-th loaded image against caption t. -/
theorem out0_6_apply (x0 : Vec Ideal S16x1024 .f32) (x1 : Vec Ideal S16x36x1024 .f32) (x2 : Vec Ideal S128x1024 .f32) (x3 : Vec Ideal S128x50x1024 .f32)
    (x4 : Vec Ideal S16x37 .f32) (x5 : Vec Ideal S128x51 .f32) (p : Fin 16) (t : Fin 128) :
    out0_6 x0 x1 x2 x3 x4 x5 (ix2 p t)
      = Spec.pair (fun d => x0 (ix2 p d)) (fun k d => x1 (ix3 p k d)) (fun d => x2 (ix2 t d)) (fun k d => x3 (ix3 t k d))
          (fun r => x4 (ix2 p r)) (fun w => x5 (ix2 t w)) := by
  rw [Chunk.out0_6_eq]
  refine View.canon_apply_of_pieces (Val := Elt Ideal) (S := S16x128) (e := .f32) (blockScore x0 x1 x2 x3 x4 x5) _ ?_ (ix2 p t) ?_
  · -- each tile at its local index is the score at the block index it is stored to
    intro pc hpc x
    simp only [List.mem_cons, List.not_mem_nil, or_false] at hpc
    rcases hpc with rfl | rfl | rfl | rfl | rfl | rfl | rfl | rfl
    · exact tile_at 112 (by omega) _ _ inb_S16x128_S16x16_0_112 x0 x1 x2 x3 x4 x5 x
    · exact tile_at 96 (by omega) _ _ inb_S16x128_S16x16_0_96 x0 x1 x2 x3 x4 x5 x
    · exact tile_at 80 (by omega) _ _ inb_S16x128_S16x16_0_80 x0 x1 x2 x3 x4 x5 x
    · exact tile_at 64 (by omega) _ _ inb_S16x128_S16x16_0_64 x0 x1 x2 x3 x4 x5 x
    · exact tile_at 48 (by omega) _ _ inb_S16x128_S16x16_0_48 x0 x1 x2 x3 x4 x5 x
    · exact tile_at 32 (by omega) _ _ inb_S16x128_S16x16_0_32 x0 x1 x2 x3 x4 x5 x
    · exact tile_at 16 (by omega) _ _ inb_S16x128_S16x16_0_16 x0 x1 x2 x3 x4 x5 x
    · exact tile_at 0 (by omega) _ _ inb_S16x128_S16x16_0_0 x0 x1 x2 x3 x4 x5 x
  · -- the eight tiles cover the block
    exact cover0_6 _ _ _ _ _ _ _ _ (ix2 p t)

/-! ## From the blocks to the array

Grid point t loads images 16 t … 16 t + 15 (their class tokens, region tokens and mask rows) and all the captions,
and writes rows 16 t … 16 t + 15 of the result. -/

/-- Where each window's block sits at a grid point: the image windows and the result window move with the point
    along their first axis; the caption windows stay at the whole array. -/
theorem idx_facts : ∀ t : Fin cfg0.N,
      win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- There are eight grid points. -/
theorem point_lt (t : Fin cfg0.N) : t.val < 8 := lt_of_lt_of_eq t.isLt N_0

/-- The image of a grid point's p-th row. -/
abbrev rowOf (t : Fin cfg0.N) (p : Fin 16) : Fin 128 := ⟨16 * t.val + p.val, by have := point_lt t; have := p.isLt; omega⟩

/-- The class-token block at point t is rows 16 t … of the images' class tokens. -/
theorem imgCls_blk (c : Dev nD) (t : Fin cfg0.N) (p : Fin 16) (d : Fin 1024) :
    iblk m c 0 t (ix2 p d) = V m c main_arg0 (ix2 (rowOf t p) d) := by
  obtain ⟨e0, e1, -⟩ := idx_facts t
  show V m c main_arg0 (((cfg0.win 0).blk t).view.emb (ix2 p d)) = _
  refine congrArg (V m c main_arg0) ?_
  funext a; apply Fin.ext
  match a with
  | ⟨0, _⟩ => show win0_0.index t (0 : Fin 2) * 16 + 1 * p.val = 16 * t.val + p.val; omega
  | ⟨1, _⟩ => show win0_0.index t (1 : Fin 2) * 1024 + 1 * d.val = d.val; omega

/-- The region-token block at point t is rows 16 t … of the images' region tokens. -/
theorem imgTok_blk (c : Dev nD) (t : Fin cfg0.N) (p : Fin 16) (k : Fin 36) (d : Fin 1024) :
    iblk m c 1 t (ix3 p k d) = V m c main_arg1 (ix3 (rowOf t p) k d) := by
  obtain ⟨-, -, e0, e1, e2, -⟩ := idx_facts t
  show V m c main_arg1 (((cfg0.win 1).blk t).view.emb (ix3 p k d)) = _
  refine congrArg (V m c main_arg1) ?_
  funext a; apply Fin.ext
  match a with
  | ⟨0, _⟩ => show win0_1.index t (0 : Fin 3) * 16 + 1 * p.val = 16 * t.val + p.val; omega
  | ⟨1, _⟩ => show win0_1.index t (1 : Fin 3) * 36 + 1 * k.val = k.val; omega
  | ⟨2, _⟩ => show win0_1.index t (2 : Fin 3) * 1024 + 1 * d.val = d.val; omega

/-- The captions' class-token block is the whole array at every point. -/
theorem capCls_blk (c : Dev nD) (t : Fin cfg0.N) (q : Fin 128) (d : Fin 1024) :
    iblk m c 2 t (ix2 q d) = V m c main_arg2 (ix2 q d) := by
  obtain ⟨-, -, -, -, -, e0, e1, -⟩ := idx_facts t
  show V m c main_arg2 (((cfg0.win 2).blk t).view.emb (ix2 q d)) = _
  refine congrArg (V m c main_arg2) ?_
  funext a; apply Fin.ext
  match a with
  | ⟨0, _⟩ => show win0_2.index t (0 : Fin 2) * 128 + 1 * q.val = q.val; omega
  | ⟨1, _⟩ => show win0_2.index t (1 : Fin 2) * 1024 + 1 * d.val = d.val; omega

/-- The captions' word-token block is the whole array at every point. -/
theorem capTok_blk (c : Dev nD) (t : Fin cfg0.N) (q : Fin 128) (k : Fin 50) (d : Fin 1024) :
    iblk m c 3 t (ix3 q k d) = V m c main_arg3 (ix3 q k d) := by
  obtain ⟨-, -, -, -, -, -, -, e0, e1, e2, -⟩ := idx_facts t
  show V m c main_arg3 (((cfg0.win 3).blk t).view.emb (ix3 q k d)) = _
  refine congrArg (V m c main_arg3) ?_
  funext a; apply Fin.ext
  match a with
  | ⟨0, _⟩ => show win0_3.index t (0 : Fin 3) * 128 + 1 * q.val = q.val; omega
  | ⟨1, _⟩ => show win0_3.index t (1 : Fin 3) * 50 + 1 * k.val = k.val; omega
  | ⟨2, _⟩ => show win0_3.index t (2 : Fin 3) * 1024 + 1 * d.val = d.val; omega

/-- The row-mask block at point t is rows 16 t … of the images' mask: the length mask of each image. -/
theorem rowMask_blk (c : Dev nD) (t : Fin cfg0.N) (p : Fin 16) (r : Fin 37) :
    iblk m c 4 t (ix2 p r) = Spec.lenMask ((m ((c : Thread nD τ).loc main_arg4) : S128.Idx → BitVec 32) (ix1 (rowOf t p))) r.val := by
  obtain ⟨-, -, -, -, -, -, -, -, -, -, e0, e1, -⟩ := idx_facts t
  refine Eq.trans ?_ (HostMask.rmask_apply m c (rowOf t p) r)
  show V m c main_v10 (((cfg0.win 4).blk t).view.emb (ix2 p r)) = _
  refine congrArg (V m c main_v10) ?_
  funext a; apply Fin.ext
  match a with
  | ⟨0, _⟩ => show win0_4.index t (0 : Fin 2) * 16 + 1 * p.val = 16 * t.val + p.val; omega
  | ⟨1, _⟩ => show win0_4.index t (1 : Fin 2) * 37 + 1 * r.val = r.val; omega

/-- The column-mask block is the whole captions' mask at every point: the length mask of each caption. -/
theorem colMask_blk (c : Dev nD) (t : Fin cfg0.N) (q : Fin 128) (w : Fin 51) :
    iblk m c 5 t (ix2 q w) = Spec.lenMask ((m ((c : Thread nD τ).loc main_arg5) : S128.Idx → BitVec 32) (ix1 q)) w.val := by
  obtain ⟨-, -, -, -, -, -, -, -, -, -, -, -, e0, e1, -⟩ := idx_facts t
  refine Eq.trans ?_ (HostMask.wmask_apply m c q w)
  show V m c main_v17 (((cfg0.win 5).blk t).view.emb (ix2 q w)) = _
  refine congrArg (V m c main_v17) ?_
  funext a; apply Fin.ext
  match a with
  | ⟨0, _⟩ => show win0_5.index t (0 : Fin 2) * 128 + 1 * q.val = q.val; omega
  | ⟨1, _⟩ => show win0_5.index t (1 : Fin 2) * 51 + 1 * w.val = w.val; omega

/-- The array of scores of the arrays the region finds. -/
abbrev scoresAt (c : Dev nD) : S128x128.Idx → EReal :=
  Spec.scores (V m c main_arg0) (V m c main_arg1) (V m c main_arg2) (V m c main_arg3)
    (m ((c : Thread nD τ).loc main_arg4)) (m ((c : Thread nD τ).loc main_arg5))

/-- What the body leaves at point t, at row p and column q, is the score of image 16 t + p against caption q. -/
theorem block_at (c : Dev nD) (t : Fin cfg0.N) (p : Fin 16) (q : Fin 128) :
    out0_6 (iblk m c 0 t) (iblk m c 1 t) (iblk m c 2 t) (iblk m c 3 t) (iblk m c 4 t) (iblk m c 5 t) (ix2 p q)
      = scoresAt m c (ix2 (rowOf t p) q) := by
  rw [out0_6_apply]
  show Spec.pair _ _ _ _ _ _ = Spec.pair _ _ _ _ _ _
  congr 1
  · funext d; exact imgCls_blk m c t p d
  · funext k d; exact imgTok_blk m c t p k d
  · funext d; exact capCls_blk m c t q d
  · funext k d; exact capTok_blk m c t q k d
  · funext r; exact rowMask_blk m c t p r
  · funext w; exact colMask_blk m c t q w

/-- What point t writes back is block t of the array of scores. -/
theorem flushed_eq (c : Dev nD) (t : Fin cfg0.N) :
    (dats m 0 c).flushed 6 t = ((cfg0.win 6).blk t).view.read (Elt Ideal) (scoresAt m c) := by
  rw [Value.flushed6]
  obtain ⟨-, -, -, -, -, -, -, -, -, -, -, -, -, -, e0, e1⟩ := idx_facts t
  funext y
  have hy0 : (y 0).val < 16 := (y 0).isLt
  have hy1 : (y 1).val < 128 := (y 1).isLt
  have hemb : ((cfg0.win 6).blk t).view.emb y = ix2 (rowOf t ⟨(y 0).val, hy0⟩) (⟨(y 1).val, hy1⟩ : Fin 128) := by
    funext a; apply Fin.ext
    match a with
    | ⟨0, _⟩ => show win0_6.index t (0 : Fin 2) * 16 + 1 * (y 0).val = 16 * t.val + (y 0).val; omega
    | ⟨1, _⟩ => show win0_6.index t (1 : Fin 2) * 128 + 1 * (y 1).val = (y 1).val; omega
  show out0_6 (iblk m c 0 t) (iblk m c 1 t) (iblk m c 2 t) (iblk m c 3 t) (iblk m c 4 t) (iblk m c 5 t) y
    = scoresAt m c (((cfg0.win 6).blk t).view.emb y)
  rw [hemb]
  exact (congrArg _ (eq_ix2 y)).trans (block_at m c t ⟨(y 0).val, hy0⟩ ⟨(y 1).val, hy1⟩)

/-- An index of the result array is in point t's block iff each coordinate is in the block's range on its axis. -/
theorem mem_blk (t : Fin cfg0.N) (i : S128x128.Idx) :
    i ∈ ((cfg0.win 6).blk t).view.set ↔ ∀ a : Fin 2, win0_6.index t a * S16x128.size a ≤ (i a).val ∧ (i a).val < win0_6.index t a * S16x128.size a + S16x128.size a := by
  show i ∈ ((View.whole main_v18).slice (win0_6.rect t)).set ↔ _
  rw [View.set_slice_whole, Rect.mem_set_unit]
  exact Iff.rfl

/-- Every index of the result array is in some point's block: row i is in the block of point i / 16. -/
theorem cover (i : S128x128.Idx) : ∃ t : Fin cfg0.N, (cfg0.win 6).flush t = true ∧ i ∈ ((cfg0.win 6).blk t).view.set := by
  have hi0 : (i 0).val < 128 := (i 0).isLt
  have hi1 : (i 1).val < 128 := (i 1).isLt
  obtain ⟨t, ht⟩ : ∃ t : Fin cfg0.N, t.val = (i 0).val / 16 := ⟨⟨(i 0).val / 16, by show (i 0).val / 16 < grid0.N; rw [N_0]; omega⟩, rfl⟩
  obtain ⟨-, -, -, -, -, -, -, -, -, -, -, -, -, -, e0, e1⟩ := idx_facts t
  refine ⟨t, flush0_6 t, ?_⟩
  rw [mem_blk]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 128 ≤ (i 1).val ∧ (i 1).val < win0_6.index t (1 : Fin 2) * 128 + 128; omega

/-- The result array after the run is the array of scores of the argument arrays. -/
theorem final (c : Dev nD) : (dats m 0 c).arrAt 6 cfg0.N
    = Spec.scores (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  rw [(dats m 0 c).arrAt_eq_of_cover 6 (scoresAt m c) (fun t _ => flushed_eq m c t) cover]
  show Spec.scores _ _ _ _ _ _ = _
  rw [V_main_arg0, V_main_arg1, V_main_arg2, V_main_arg3]

/-- After the run the result array is the array of scores of the argument arrays; the arguments are unchanged. -/
theorem run : θ_run defs (onTc (τ := τ) (main (F := Ideal))) ⟨m, fun _ => 0, ρ⟩ fun r => ∀ c : Dev nD,
      r.2.mem ((c : Thread nD τ).loc main_v18) = Spec.scores (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelValue

end
-- ==== Proof.RefRun.lean ====
/-
  The reference's run, with its result named by the last stage.

  Every weakly fair execution of the reference terminates with its result array at the composition of its host
  operations applied to the argument arrays. That composition, written out, is the last of the named stages
  `val_main_v107` applied to the six argument arrays: the two are the same term once the stages' names unfold.
-/
import proofs.«110340_j62466004353037_1_alg».proof.Proof.RefRunCopy
import proofs.«110340_j62466004353037_1_alg».proof.Proof.RefReadCopy

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The composed term of the run is the last stage of the staged reading. -/
theorem res_eq_val (m : (ℓ : Loc nD τ sig) → Buf (Elt F) ℓ) (c : Dev nD) :
    Cert.ReferenceIdeal.RunCopy.res_main_v107 m c
      = Cert.ReferenceIdeal.ReadCopy.val_main_v107 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.RunCopy.res_main_v107; rfl

end Cert.ReferenceIdeal.RefRun

end
-- ==== Proof.RefMask.lean ====
/-
  The reference's boolean mask against the specification's 0/1 mask.

  The reference keeps the mask as one-bit words: entry (i, t, r, w) is the conjunction of "r is inside image i"
  and "w is inside caption t". The specification works with the product of the two 0/1 numbers. The two agree:
  a one-bit word read as a number is 0 or 1, the conjunction reads as the product, the word is set exactly when
  its number is positive, and a disjunction along an axis is set exactly when the numbers along it sum to
  something positive.
-/
import proofs.«110340_j62466004353037_1_alg».proof.Proof.RefReadCopy
import proofs.«110340_j62466004353037_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefMask

open Cert.ReferenceIdeal Cert.ReferenceIdeal.Gen Cert.ReferenceIdeal.ReadCopy Idealize.ShloMosaic Idealize.ShloMosaic.ValueIdx Idealize.SL.Sem

/-! ## One-bit words as numbers -/

/-- A one-bit word read unsigned is the same number as the word widened to 32 bits and read signed. -/
theorem uitofp_eq_bit (b : BitVec 1) : FloatOps.uitofp (F := Ideal) .f32 b = Spec.bit b := by
  rcases BitVec.eq_zero_or_eq_one b with rfl | rfl
  · show (((0#1 : BitVec 1).toNat : ℝ) : EReal) = ((((0#1 : BitVec 1).setWidth 32).toInt : ℝ) : EReal)
    have h1 : (0#1 : BitVec 1).toNat = 0 := by decide
    have h2 : ((0#1 : BitVec 1).setWidth 32).toInt = 0 := by decide
    rw [h1, h2]; simp
  · show (((1#1 : BitVec 1).toNat : ℝ) : EReal) = ((((1#1 : BitVec 1).setWidth 32).toInt : ℝ) : EReal)
    have h1 : (1#1 : BitVec 1).toNat = 1 := by decide
    have h2 : ((1#1 : BitVec 1).setWidth 32).toInt = 1 := by decide
    rw [h1, h2]; simp

/-- The number of the clear word is 0. -/
theorem uitofp_zero : FloatOps.uitofp (F := Ideal) .f32 (0#1 : BitVec 1) = 0 := by
  show (((0#1 : BitVec 1).toNat : ℝ) : EReal) = 0
  have h1 : (0#1 : BitVec 1).toNat = 0 := by decide
  rw [h1]; simp

/-- The number of the set word is 1. -/
theorem uitofp_one : FloatOps.uitofp (F := Ideal) .f32 (1#1 : BitVec 1) = 1 := by
  show (((1#1 : BitVec 1).toNat : ℝ) : EReal) = 1
  have h1 : (1#1 : BitVec 1).toNat = 1 := by decide
  rw [h1]; simp

/-- The conjunction of two one-bit words reads as the product of their numbers. -/
theorem uitofp_andi (a b : BitVec 1) :
    FloatOps.uitofp (F := Ideal) .f32 (IntOp.andi a b) = FloatOps.uitofp (F := Ideal) .f32 a * FloatOps.uitofp (F := Ideal) .f32 b := by
  rcases BitVec.eq_zero_or_eq_one a with rfl | rfl <;> rcases BitVec.eq_zero_or_eq_one b with rfl | rfl
  · rw [show IntOp.andi (0#1 : BitVec 1) 0#1 = 0#1 from by decide, uitofp_zero, zero_mul]
  · rw [show IntOp.andi (0#1 : BitVec 1) 1#1 = 0#1 from by decide, uitofp_zero, zero_mul]
  · rw [show IntOp.andi (1#1 : BitVec 1) 0#1 = 0#1 from by decide, uitofp_zero, mul_zero]
  · rw [show IntOp.andi (1#1 : BitVec 1) 1#1 = 1#1 from by decide, uitofp_one, one_mul]

/-- Positivity as a one-bit word, spelled out: the word is set exactly when 0 < x. -/
theorem isPos_def (x : EReal) : Spec.isPos x = BitVec.ofBool (decide (0 < x)) := by
  unfold Spec.isPos Spec.zero Ideal.cmp
  rw [Ideal.ofBits_zero_f32]

/-- A positive number's word is set. -/
theorem isPos_of_pos {x : EReal} (h : 0 < x) : Spec.isPos x = 1#1 := by
  rw [isPos_def, decide_eq_true h]; rfl

/-- A number that is not positive has the clear word. -/
theorem isPos_of_not_pos {x : EReal} (h : ¬ 0 < x) : Spec.isPos x = 0#1 := by
  rw [isPos_def, decide_eq_false h]; rfl

/-- A one-bit word is set exactly when its number is positive. -/
theorem isPos_uitofp (b : BitVec 1) : Spec.isPos (FloatOps.uitofp (F := Ideal) .f32 b) = b := by
  rcases BitVec.eq_zero_or_eq_one b with rfl | rfl
  · rw [uitofp_zero]; exact isPos_of_not_pos (lt_irrefl _)
  · rw [uitofp_one]; exact isPos_of_pos zero_lt_one

/-! ## The boolean mask at an index -/

/-- The image side of the mask: position r is inside image i. -/
theorem maskRow_apply (x4 : (⟨S128, .i32⟩ : BufTy).Contents (Elt Ideal)) (i t : Fin 128) (r : Fin 37) (w : Fin 51) :
    val_main_v34 (F := Ideal) x4 (ix4 i t r w) = Spec.lenBit (x4 (ix1 i)) r.val := by
  rw [val_main_v34_apply, val_main_v32_apply, val_main_v25_apply, val_main_v23_apply, val_main_v21_apply, val_main_v20_apply,
    val_main_v24_apply, val_main_v22_apply, val_main_v17_apply, val_main_v16_apply, val_main_c_apply]
  unfold Spec.lenBit
  refine congrArg (fun j => IntOp.cmpi .slt (BitVec.ofNat 32 r.val) (IntOp.addi (x4 j) 1#32)) ?_
  exact funext fun a => match a with | ⟨0, _⟩ => rfl

/-- The caption side of the mask: position w is inside caption t. -/
theorem maskCol_apply (x5 : (⟨S128, .i32⟩ : BufTy).Contents (Elt Ideal)) (i t : Fin 128) (r : Fin 37) (w : Fin 51) :
    val_main_v35 (F := Ideal) x5 (ix4 i t r w) = Spec.lenBit (x5 (ix1 t)) w.val := by
  rw [val_main_v35_apply, val_main_v33_apply, val_main_v31_apply, val_main_v29_apply, val_main_v27_apply, val_main_v26_apply,
    val_main_v30_apply, val_main_v28_apply, val_main_v19_apply, val_main_v18_apply, val_main_c_1_apply]
  unfold Spec.lenBit
  refine congrArg (fun j => IntOp.cmpi .slt (BitVec.ofNat 32 w.val) (IntOp.addi (x5 j) 1#32)) ?_
  exact funext fun a => match a with | ⟨0, _⟩ => rfl

/-- The boolean mask at an index. -/
theorem mask_apply (x4 x5 : (⟨S128, .i32⟩ : BufTy).Contents (Elt Ideal)) (i t : Fin 128) (r : Fin 37) (w : Fin 51) :
    val_main_v36 (F := Ideal) x4 x5 (ix4 i t r w) = IntOp.andi (Spec.lenBit (x4 (ix1 i)) r.val) (Spec.lenBit (x5 (ix1 t)) w.val) := by
  rw [val_main_v36_apply, maskRow_apply, maskCol_apply]

/-- The boolean mask read as a number is the product of the two 0/1 masks. -/
theorem maskF_apply (x4 x5 : (⟨S128, .i32⟩ : BufTy).Contents (Elt Ideal)) (i t : Fin 128) (r : Fin 37) (w : Fin 51) :
    FloatOps.uitofp (F := Ideal) .f32 (val_main_v36 (F := Ideal) x4 x5 (ix4 i t r w)) = Spec.lenMask (x4 (ix1 i)) r.val * Spec.lenMask (x5 (ix1 t)) w.val := by
  rw [mask_apply, uitofp_andi]; rfl

/-- The boolean mask is set exactly when the product mask is positive. -/
theorem mask_eq_isPos (x4 x5 : (⟨S128, .i32⟩ : BufTy).Contents (Elt Ideal)) (i t : Fin 128) (r : Fin 37) (w : Fin 51) :
    val_main_v36 (F := Ideal) x4 x5 (ix4 i t r w) = Spec.isPos (Spec.lenMask (x4 (ix1 i)) r.val * Spec.lenMask (x5 (ix1 t)) w.val) := by
  rw [← maskF_apply, isPos_uitofp]

/-! ## A disjunction along an axis -/

/-- The number of a one-bit word is not negative. -/
theorem uitofp_nonneg (b : BitVec 1) : 0 ≤ FloatOps.uitofp (F := Ideal) .f32 b := by
  rcases BitVec.eq_zero_or_eq_one b with rfl | rfl
  · rw [uitofp_zero]
  · rw [uitofp_one]; exact zero_le_one

/-- For two numbers that are not negative, the sum is positive exactly when one of them is. -/
theorem isPos_add {x y : EReal} (hx : 0 ≤ x) (hy : 0 ≤ y) : Spec.isPos (x + y) = IntOp.ori (Spec.isPos x) (Spec.isPos y) := by
  by_cases px : 0 < x
  · rw [isPos_of_pos px, isPos_of_pos (add_pos_of_pos_of_nonneg px hy)]
    rcases BitVec.eq_zero_or_eq_one (Spec.isPos y) with e | e <;> rw [e] <;> decide
  · have ex : x = 0 := le_antisymm (not_lt.1 px) hx
    rw [ex, zero_add, isPos_of_not_pos (lt_irrefl (0 : EReal))]
    rcases BitVec.eq_zero_or_eq_one (Spec.isPos y) with e | e <;> rw [e] <;> decide

/-- The disjunction of a family of one-bit words over a finite set is set exactly when their numbers sum to something positive. -/
theorem fold_ori_eq_isPos_sum {ι : Type} [DecidableEq ι] (s : Finset ι) (b : ι → BitVec 1) :
    s.fold IntOp.ori 0#1 b = Spec.isPos (∑ k ∈ s, FloatOps.uitofp (F := Ideal) .f32 (b k)) := by
  induction s using Finset.induction_on with
  | empty => rw [Finset.fold_empty, Finset.sum_empty]; exact (isPos_of_not_pos (lt_irrefl _)).symm
  | insert a s ha ih =>
    rw [Finset.fold_insert ha, Finset.sum_insert ha, isPos_add (uitofp_nonneg _) (Finset.sum_nonneg fun k _ => uitofp_nonneg _),
      isPos_uitofp, ih]

/-- The same over a whole axis, read as a number: the indicator that the numbers along the axis sum to something positive. -/
theorem uitofp_fold_ori {n : Nat} (b : Fin n → BitVec 1) :
    FloatOps.uitofp (F := Ideal) .f32 ((Finset.univ : Finset (Fin n)).fold IntOp.ori 0#1 b)
      = Spec.ind (∑ k : Fin n, FloatOps.uitofp (F := Ideal) .f32 (b k)) := by
  rw [fold_ori_eq_isPos_sum, uitofp_eq_bit]; rfl

/-! ## Live rows and live columns -/

/-- Dropping the last axis of the 128 × 128 × 37 × 51 array leaves 128 × 128 × 37; dropping the third leaves 128 × 128 × 51. -/
theorem reduces_rows : S128x128x37x51.Reduces [3] S128x128x37 := by decide
theorem reduces_cols : S128x128x37x51.Reduces [2] S128x128x51 := by decide

/-- The index (i, t, r) with column w put back on the last axis. -/
theorem lift_rows (i t : Fin 128) (r : Fin 37) (w : Fin 51) :
    reduces_rows.lift (ix3 i t r) w = ix4 i t r w :=
  funext fun c => Fin.ext (match c with
    | ⟨0, _⟩ => rfl
    | ⟨1, _⟩ => rfl
    | ⟨2, _⟩ => rfl
    | ⟨3, _⟩ => rfl)

/-- The index (i, t, w) with row r put back on the third axis. -/
theorem lift_cols (i t : Fin 128) (w : Fin 51) (r : Fin 37) :
    reduces_cols.lift (ix3 i t w) r = ix4 i t r w :=
  funext fun c => Fin.ext (match c with
    | ⟨0, _⟩ => rfl
    | ⟨1, _⟩ => rfl
    | ⟨2, _⟩ => rfl
    | ⟨3, _⟩ => rfl)

/-- Live rows: "some column of row r is masked in" read as a number is the indicator that the row's mask sums to something positive. -/
theorem rowLive_apply (x4 x5 : (⟨S128, .i32⟩ : BufTy).Contents (Elt Ideal)) (i t : Fin 128) (r : Fin 37) :
    val_main_v38 (F := Ideal) x4 x5 (ix3 i t r) = Spec.rowLive (a := 37) (b := 51) (fun (r : Fin 37) (w : Fin 51) => Spec.lenMask (x4 (ix1 i)) r.val * Spec.lenMask (x5 (ix1 t)) w.val) r := by
  rw [val_main_v38_apply]
  unfold val_main_v37
  rw [Host.reduce_eq_fold_single IntOp.ori _ _ reducesTo_S128x128x37x51_S128x128x37_d3 reduces_rows h_S_]
  refine (uitofp_fold_ori (n := 51) _).trans ?_
  unfold Spec.rowLive
  refine congrArg Spec.ind (Finset.sum_congr rfl fun w _ => ?_)
  show FloatOps.uitofp (F := Ideal) .f32 (val_main_v36 (F := Ideal) x4 x5 (reduces_rows.lift (ix3 i t r) w)) = _
  rw [lift_rows, maskF_apply]

/-- Live columns. -/
theorem colLive_apply (x4 x5 : (⟨S128, .i32⟩ : BufTy).Contents (Elt Ideal)) (i t : Fin 128) (w : Fin 51) :
    val_main_v40 (F := Ideal) x4 x5 (ix3 i t w) = Spec.colLive (a := 37) (b := 51) (fun (r : Fin 37) (w : Fin 51) => Spec.lenMask (x4 (ix1 i)) r.val * Spec.lenMask (x5 (ix1 t)) w.val) w := by
  rw [val_main_v40_apply]
  unfold val_main_v39
  rw [Host.reduce_eq_fold_single IntOp.ori _ _ reducesTo_S128x128x37x51_S128x128x51_d2 reduces_cols h_S_]
  refine (uitofp_fold_ori (n := 37) _).trans ?_
  unfold Spec.colLive
  refine congrArg Spec.ind (Finset.sum_congr rfl fun r _ => ?_)
  show FloatOps.uitofp (F := Ideal) .f32 (val_main_v36 (F := Ideal) x4 x5 (reduces_cols.lift (ix3 i t w) r)) = _
  rw [lift_cols, maskF_apply]

end Cert.ReferenceIdeal.RefMask

end
-- ==== Proof.RefCore.lean ====
/-
  The reference's result read at a pair.

  Entry (i, t) of the reference's result is the score `Spec.core` of the (i, t) slice of its similarity array and
  the product mask of image i and caption t: its stages (marginals, Gibbs kernel, initial plan, three rounds of
  row and column rescaling, the final masked sum) are the specification's, read at an index, with the boolean
  mask replaced by the product mask.
-/
import proofs.«110340_j62466004353037_1_alg».proof.Proof.RefReadCopy
import proofs.«110340_j62466004353037_1_alg».proof.Proof.Spec
import proofs.«110340_j62466004353037_1_alg».proof.Proof.LibSumLastTwo
import proofs.«110340_j62466004353037_1_alg».proof.Proof.RefMask
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefCore

open Cert.ReferenceIdeal Cert.ReferenceIdeal.Gen Cert.ReferenceIdeal.ReadCopy Idealize.ShloMosaic Idealize.ShloMosaic.ValueIdx Idealize.SL.Sem

open Cert.ReferenceIdeal.RefMask

section
variable (x0 : (⟨S128x1024, .f32⟩ : BufTy).Contents (Elt Ideal)) (x1 : (⟨S128x36x1024, .f32⟩ : BufTy).Contents (Elt Ideal))
  (x2 : (⟨S128x1024, .f32⟩ : BufTy).Contents (Elt Ideal)) (x3 : (⟨S128x50x1024, .f32⟩ : BufTy).Contents (Elt Ideal))
  (x4 x5 : (⟨S128, .i32⟩ : BufTy).Contents (Elt Ideal)) (i t : Fin 128)

/-- The product mask of image i and caption t. -/
abbrev msk : Fin 37 → Fin 51 → EReal :=
  fun r w => Spec.lenMask (x4 (ix1 i)) r.val * Spec.lenMask (x5 (ix1 t)) w.val

/-- The (i, t) slice of the similarity array. -/
abbrev slc : Fin 37 → Fin 51 → EReal :=
  fun r w => val_main_v15 (F := Ideal) x0 x1 x2 x3 (ix4 i t r w)

/-- The uniform marginal on live rows. -/
theorem rowMarg_apply (r : Fin 37) :
    val_main_v44 (F := Ideal) x4 x5 (ix3 i t r) = Spec.rowMarg (msk x4 x5 i t) r := by
  rw [val_main_v44_apply, val_main_v43_apply, val_main_v42_apply, val_main_v41_apply, val_main_cst_4_apply]
  unfold Spec.rowMarg
  rw [rowLive_apply]
  show Ideal.div _ (Ideal.ofBits .f32 0x00000000#32 + _) = _
  rw [Ideal.ofBits_zero_f32, zero_add]
  refine congrArg (Ideal.div _) (Finset.sum_congr rfl fun k _ => ?_)
  refine (congrArg (val_main_v38 (F := Ideal) x4 x5) (?_ : idx_main_v41 (idx_main_v42 (idx_main_v43 (ix3 i t r))) k = ix3 i t k)).trans (rowLive_apply x4 x5 i t k)
  exact funext fun a => match a with | ⟨0, _⟩ => rfl | ⟨1, _⟩ => rfl | ⟨2, _⟩ => rfl

/-- The uniform marginal on live columns. -/
theorem colMarg_apply (w : Fin 51) :
    val_main_v48 (F := Ideal) x4 x5 (ix3 i t w) = Spec.colMarg (msk x4 x5 i t) w := by
  rw [val_main_v48_apply, val_main_v47_apply, val_main_v46_apply, val_main_v45_apply, val_main_cst_5_apply]
  unfold Spec.colMarg
  rw [colLive_apply]
  show Ideal.div _ (Ideal.ofBits .f32 0x00000000#32 + _) = _
  rw [Ideal.ofBits_zero_f32, zero_add]
  refine congrArg (Ideal.div _) (Finset.sum_congr rfl fun k _ => ?_)
  refine (congrArg (val_main_v40 (F := Ideal) x4 x5) (?_ : idx_main_v45 (idx_main_v46 (idx_main_v47 (ix3 i t w))) k = ix3 i t k)).trans (colLive_apply x4 x5 i t k)
  exact funext fun a => match a with | ⟨0, _⟩ => rfl | ⟨1, _⟩ => rfl | ⟨2, _⟩ => rfl

/-- A zero in front of a subtraction is a negation. -/
theorem zero_sub_eq (x : EReal) : Spec.zero - x = -x := by
  rw [show Spec.zero = 0 from Ideal.ofBits_zero_f32, zero_sub]

/-- The Gibbs kernel on live entries. -/
theorem gibbs_apply (r : Fin 37) (w : Fin 51) :
    val_main_v55 (F := Ideal) x0 x1 x2 x3 x4 x5 (ix4 i t r w) = Spec.gibbs (slc x0 x1 x2 x3 i t) (msk x4 x5 i t) r w := by
  rw [val_main_v55_apply, mask_eq_isPos, val_main_v54_apply, val_main_v53_apply, val_main_v51_apply, val_main_v50_apply,
    val_main_v49_apply, val_main_cst_6_apply, val_main_v52_apply, val_main_cst_7_apply, val_main_call2_v1_apply,
    val_main_call2_v0_apply, val_main_cst_8_apply]
  unfold Spec.gibbs
  rw [zero_sub_eq]
  rfl

/-- The total of the Gibbs kernel over the pair's matrix. -/
theorem gibbsSum_apply :
    val_main_v56 (F := Ideal) x0 x1 x2 x3 x4 x5 (ix2 i t)
      = ∑ r : Fin 37, ∑ w : Fin 51, Spec.gibbs (slc x0 x1 x2 x3 i t) (msk x4 x5 i t) r w := by
  unfold val_main_v56
  simp only [Host.reduceAdd, Ideal.hostReduceAdd_def]
  rw [Ideal.hostReduceAdd_last2]
  refine (congrArg (· + _) (?_ : _ = (0 : EReal))).trans ((zero_add _).trans ?_)
  · exact Ideal.ofBits_zero_f32
  · exact Finset.sum_congr rfl fun r _ => Finset.sum_congr rfl fun w _ => gibbs_apply x0 x1 x2 x3 x4 x5 i t r w

/-- The initial plan. -/
theorem plan0_apply (r : Fin 37) (w : Fin 51) :
    val_main_v61 (F := Ideal) x0 x1 x2 x3 x4 x5 (ix4 i t r w) = Spec.plan0 (slc x0 x1 x2 x3 i t) (msk x4 x5 i t) r w := by
  rw [val_main_v61_apply, gibbs_apply, val_main_v60_apply, val_main_v59_apply, val_main_v57_apply, val_main_v58_apply,
    val_main_cst_10_apply]
  rw [show idx_main_v57 (idx_main_v60 (ix4 i t r w)) = ix2 i t from
    funext fun a => match a with | ⟨0, _⟩ => rfl | ⟨1, _⟩ => rfl]
  rw [gibbsSum_apply]
  rfl

/-- One row rescaling, for any stages of that shape: if Q = P · (ρ / (row sums of P + ε)) spread along the
    columns, and P at the pair's entries is P', then Q at the pair's entries is P' with its rows rescaled
    towards the row marginal. The index maps of the two spreads and of the sum are parameters, known only
    through their values at the pair's indices. -/
theorem rowHalf {P Q B2 : S128x128x37x51.Idx → EReal} {B1 : S128x128x37x1.Idx → EReal} {D A S E : S128x128x37.Idx → EReal}
    {g2 : S128x128x37x51.Idx → S128x128x37x1.Idx} {g1 : S128x128x37x1.Idx → S128x128x37.Idx}
    {gs : S128x128x37.Idx → Fin 51 → S128x128x37x51.Idx}
    (hQ : ∀ j, Q j = P j * B2 j) (hB2 : ∀ j, B2 j = B1 (g2 j)) (hB1 : ∀ j, B1 j = D (g1 j))
    (hD : ∀ j, D j = Ideal.div (val_main_v44 (F := Ideal) x4 x5 j) (A j)) (hA : ∀ j, A j = S j + E j)
    (hS : ∀ j, S j = Spec.zero + ∑ k : Fin 51, P (gs j k)) (hE : ∀ j, E j = Spec.eps)
    (hg : ∀ r w, g1 (g2 (ix4 i t r w)) = ix3 i t r) (hgs : ∀ r k, gs (ix3 i t r) k = ix4 i t r k)
    {P' : Fin 37 → Fin 51 → EReal} (hP : ∀ r w, P (ix4 i t r w) = P' r w) (r : Fin 37) (w : Fin 51) :
    Q (ix4 i t r w) = Spec.scaleRows (Spec.rowMarg (msk x4 x5 i t)) P' r w := by
  rw [hQ, hB2, hB1, hg, hD, hA, hS, hE, rowMarg_apply, hP]
  unfold Spec.scaleRows
  rw [show Spec.zero = 0 from Ideal.ofBits_zero_f32, zero_add]
  simp only [hgs, hP]

/-- One column rescaling, likewise: Q = P · (γ / (column sums of P + ε)) spread along the rows. -/
theorem colHalf {P Q B2 : S128x128x37x51.Idx → EReal} {B1 : S128x128x1x51.Idx → EReal} {D A S E : S128x128x51.Idx → EReal}
    {g2 : S128x128x37x51.Idx → S128x128x1x51.Idx} {g1 : S128x128x1x51.Idx → S128x128x51.Idx}
    {gs : S128x128x51.Idx → Fin 37 → S128x128x37x51.Idx}
    (hQ : ∀ j, Q j = P j * B2 j) (hB2 : ∀ j, B2 j = B1 (g2 j)) (hB1 : ∀ j, B1 j = D (g1 j))
    (hD : ∀ j, D j = Ideal.div (val_main_v48 (F := Ideal) x4 x5 j) (A j)) (hA : ∀ j, A j = S j + E j)
    (hS : ∀ j, S j = Spec.zero + ∑ k : Fin 37, P (gs j k)) (hE : ∀ j, E j = Spec.eps)
    (hg : ∀ r w, g1 (g2 (ix4 i t r w)) = ix3 i t w) (hgs : ∀ w k, gs (ix3 i t w) k = ix4 i t k w)
    {P' : Fin 37 → Fin 51 → EReal} (hP : ∀ r w, P (ix4 i t r w) = P' r w) (r : Fin 37) (w : Fin 51) :
    Q (ix4 i t r w) = Spec.scaleCols (Spec.colMarg (msk x4 x5 i t)) P' r w := by
  rw [hQ, hB2, hB1, hg, hD, hA, hS, hE, colMarg_apply, hP]
  unfold Spec.scaleCols
  rw [show Spec.zero = 0 from Ideal.ofBits_zero_f32, zero_add]
  simp only [hgs, hP]

/-! ## The three rounds -/

/-- First round, rows. -/
theorem rows1_apply (r : Fin 37) (w : Fin 51) :
    val_main_v68 (F := Ideal) x0 x1 x2 x3 x4 x5 (ix4 i t r w)
      = Spec.scaleRows (Spec.rowMarg (msk x4 x5 i t)) (Spec.plan0 (slc x0 x1 x2 x3 i t) (msk x4 x5 i t)) r w :=
  rowHalf x4 x5 i t (P := val_main_v61 (F := Ideal) x0 x1 x2 x3 x4 x5) (Q := val_main_v68 (F := Ideal) x0 x1 x2 x3 x4 x5) (B2 := val_main_v67 (F := Ideal) x0 x1 x2 x3 x4 x5) (B1 := val_main_v66 (F := Ideal) x0 x1 x2 x3 x4 x5)
    (D := val_main_v65 (F := Ideal) x0 x1 x2 x3 x4 x5) (A := val_main_v64 (F := Ideal) x0 x1 x2 x3 x4 x5) (S := val_main_v62 (F := Ideal) x0 x1 x2 x3 x4 x5) (E := val_main_v63 (F := Ideal))
    (g2 := idx_main_v67) (g1 := idx_main_v66) (gs := idx_main_v62)
    (val_main_v68_apply (F := Ideal) x0 x1 x2 x3 x4 x5) (val_main_v67_apply (F := Ideal) x0 x1 x2 x3 x4 x5) (val_main_v66_apply (F := Ideal) x0 x1 x2 x3 x4 x5) (val_main_v65_apply (F := Ideal) x0 x1 x2 x3 x4 x5) (val_main_v64_apply (F := Ideal) x0 x1 x2 x3 x4 x5) (val_main_v62_apply x0 x1 x2 x3 x4 x5)
    (fun j => (val_main_v63_apply (F := Ideal) j).trans (val_main_cst_12_apply _))
    (fun r w => funext fun a => match a with | ⟨0, _⟩ => rfl | ⟨1, _⟩ => rfl | ⟨2, _⟩ => rfl)
    (fun r k => funext fun a => match a with | ⟨0, _⟩ => rfl | ⟨1, _⟩ => rfl | ⟨2, _⟩ => rfl | ⟨3, _⟩ => rfl)
    (plan0_apply x0 x1 x2 x3 x4 x5 i t) r w

/-- First round, columns: the plan after one round. -/
theorem round1_apply (r : Fin 37) (w : Fin 51) :
    val_main_v75 (F := Ideal) x0 x1 x2 x3 x4 x5 (ix4 i t r w)
      = Spec.round (Spec.rowMarg (msk x4 x5 i t)) (Spec.colMarg (msk x4 x5 i t)) (Spec.plan0 (slc x0 x1 x2 x3 i t) (msk x4 x5 i t)) r w :=
  colHalf x4 x5 i t (P := val_main_v68 (F := Ideal) x0 x1 x2 x3 x4 x5) (Q := val_main_v75 (F := Ideal) x0 x1 x2 x3 x4 x5) (B2 := val_main_v74 (F := Ideal) x0 x1 x2 x3 x4 x5) (B1 := val_main_v73 (F := Ideal) x0 x1 x2 x3 x4 x5)
    (D := val_main_v72 (F := Ideal) x0 x1 x2 x3 x4 x5) (A := val_main_v71 (F := Ideal) x0 x1 x2 x3 x4 x5) (S := val_main_v69 (F := Ideal) x0 x1 x2 x3 x4 x5) (E := val_main_v70 (F := Ideal))
    (g2 := idx_main_v74) (g1 := idx_main_v73) (gs := idx_main_v69)
    (val_main_v75_apply (F := Ideal) x0 x1 x2 x3 x4 x5) (val_main_v74_apply (F := Ideal) x0 x1 x2 x3 x4 x5) (val_main_v73_apply (F := Ideal) x0 x1 x2 x3 x4 x5) (val_main_v72_apply (F := Ideal) x0 x1 x2 x3 x4 x5) (val_main_v71_apply (F := Ideal) x0 x1 x2 x3 x4 x5) (val_main_v69_apply x0 x1 x2 x3 x4 x5)
    (fun j => (val_main_v70_apply (F := Ideal) j).trans (val_main_cst_14_apply _))
    (fun r w => funext fun a => match a with | ⟨0, _⟩ => rfl | ⟨1, _⟩ => rfl | ⟨2, _⟩ => rfl)
    (fun w k => funext fun a => match a with | ⟨0, _⟩ => rfl | ⟨1, _⟩ => rfl | ⟨2, _⟩ => rfl | ⟨3, _⟩ => rfl)
    (rows1_apply x0 x1 x2 x3 x4 x5 i t) r w

/-- Second round, rows. -/
theorem rows2_apply (r : Fin 37) (w : Fin 51) :
    val_main_v82 (F := Ideal) x0 x1 x2 x3 x4 x5 (ix4 i t r w)
      = Spec.scaleRows (Spec.rowMarg (msk x4 x5 i t)) (Spec.round (Spec.rowMarg (msk x4 x5 i t)) (Spec.colMarg (msk x4 x5 i t)) (Spec.plan0 (slc x0 x1 x2 x3 i t) (msk x4 x5 i t))) r w :=
  rowHalf x4 x5 i t (P := val_main_v75 (F := Ideal) x0 x1 x2 x3 x4 x5) (Q := val_main_v82 (F := Ideal) x0 x1 x2 x3 x4 x5) (B2 := val_main_v81 (F := Ideal) x0 x1 x2 x3 x4 x5) (B1 := val_main_v80 (F := Ideal) x0 x1 x2 x3 x4 x5)
    (D := val_main_v79 (F := Ideal) x0 x1 x2 x3 x4 x5) (A := val_main_v78 (F := Ideal) x0 x1 x2 x3 x4 x5) (S := val_main_v76 (F := Ideal) x0 x1 x2 x3 x4 x5) (E := val_main_v77 (F := Ideal))
    (g2 := idx_main_v81) (g1 := idx_main_v80) (gs := idx_main_v76)
    (val_main_v82_apply (F := Ideal) x0 x1 x2 x3 x4 x5) (val_main_v81_apply (F := Ideal) x0 x1 x2 x3 x4 x5) (val_main_v80_apply (F := Ideal) x0 x1 x2 x3 x4 x5) (val_main_v79_apply (F := Ideal) x0 x1 x2 x3 x4 x5) (val_main_v78_apply (F := Ideal) x0 x1 x2 x3 x4 x5) (val_main_v76_apply x0 x1 x2 x3 x4 x5)
    (fun j => (val_main_v77_apply (F := Ideal) j).trans (val_main_cst_16_apply _))
    (fun r w => funext fun a => match a with | ⟨0, _⟩ => rfl | ⟨1, _⟩ => rfl | ⟨2, _⟩ => rfl)
    (fun r k => funext fun a => match a with | ⟨0, _⟩ => rfl | ⟨1, _⟩ => rfl | ⟨2, _⟩ => rfl | ⟨3, _⟩ => rfl)
    (round1_apply x0 x1 x2 x3 x4 x5 i t) r w

/-- Second round, columns: the plan after two rounds. -/
theorem round2_apply (r : Fin 37) (w : Fin 51) :
    val_main_v89 (F := Ideal) x0 x1 x2 x3 x4 x5 (ix4 i t r w)
      = Spec.round (Spec.rowMarg (msk x4 x5 i t)) (Spec.colMarg (msk x4 x5 i t)) (Spec.round (Spec.rowMarg (msk x4 x5 i t)) (Spec.colMarg (msk x4 x5 i t)) (Spec.plan0 (slc x0 x1 x2 x3 i t) (msk x4 x5 i t))) r w :=
  colHalf x4 x5 i t (P := val_main_v82 (F := Ideal) x0 x1 x2 x3 x4 x5) (Q := val_main_v89 (F := Ideal) x0 x1 x2 x3 x4 x5) (B2 := val_main_v88 (F := Ideal) x0 x1 x2 x3 x4 x5) (B1 := val_main_v87 (F := Ideal) x0 x1 x2 x3 x4 x5)
    (D := val_main_v86 (F := Ideal) x0 x1 x2 x3 x4 x5) (A := val_main_v85 (F := Ideal) x0 x1 x2 x3 x4 x5) (S := val_main_v83 (F := Ideal) x0 x1 x2 x3 x4 x5) (E := val_main_v84 (F := Ideal))
    (g2 := idx_main_v88) (g1 := idx_main_v87) (gs := idx_main_v83)
    (val_main_v89_apply (F := Ideal) x0 x1 x2 x3 x4 x5) (val_main_v88_apply (F := Ideal) x0 x1 x2 x3 x4 x5) (val_main_v87_apply (F := Ideal) x0 x1 x2 x3 x4 x5) (val_main_v86_apply (F := Ideal) x0 x1 x2 x3 x4 x5) (val_main_v85_apply (F := Ideal) x0 x1 x2 x3 x4 x5) (val_main_v83_apply x0 x1 x2 x3 x4 x5)
    (fun j => (val_main_v84_apply (F := Ideal) j).trans (val_main_cst_18_apply _))
    (fun r w => funext fun a => match a with | ⟨0, _⟩ => rfl | ⟨1, _⟩ => rfl | ⟨2, _⟩ => rfl)
    (fun w k => funext fun a => match a with | ⟨0, _⟩ => rfl | ⟨1, _⟩ => rfl | ⟨2, _⟩ => rfl | ⟨3, _⟩ => rfl)
    (rows2_apply x0 x1 x2 x3 x4 x5 i t) r w

/-- Third round, rows. -/
theorem rows3_apply (r : Fin 37) (w : Fin 51) :
    val_main_v96 (F := Ideal) x0 x1 x2 x3 x4 x5 (ix4 i t r w)
      = Spec.scaleRows (Spec.rowMarg (msk x4 x5 i t)) (Spec.round (Spec.rowMarg (msk x4 x5 i t)) (Spec.colMarg (msk x4 x5 i t)) (Spec.round (Spec.rowMarg (msk x4 x5 i t)) (Spec.colMarg (msk x4 x5 i t)) (Spec.plan0 (slc x0 x1 x2 x3 i t) (msk x4 x5 i t)))) r w :=
  rowHalf x4 x5 i t (P := val_main_v89 (F := Ideal) x0 x1 x2 x3 x4 x5) (Q := val_main_v96 (F := Ideal) x0 x1 x2 x3 x4 x5) (B2 := val_main_v95 (F := Ideal) x0 x1 x2 x3 x4 x5) (B1 := val_main_v94 (F := Ideal) x0 x1 x2 x3 x4 x5)
    (D := val_main_v93 (F := Ideal) x0 x1 x2 x3 x4 x5) (A := val_main_v92 (F := Ideal) x0 x1 x2 x3 x4 x5) (S := val_main_v90 (F := Ideal) x0 x1 x2 x3 x4 x5) (E := val_main_v91 (F := Ideal))
    (g2 := idx_main_v95) (g1 := idx_main_v94) (gs := idx_main_v90)
    (val_main_v96_apply (F := Ideal) x0 x1 x2 x3 x4 x5) (val_main_v95_apply (F := Ideal) x0 x1 x2 x3 x4 x5) (val_main_v94_apply (F := Ideal) x0 x1 x2 x3 x4 x5) (val_main_v93_apply (F := Ideal) x0 x1 x2 x3 x4 x5) (val_main_v92_apply (F := Ideal) x0 x1 x2 x3 x4 x5) (val_main_v90_apply x0 x1 x2 x3 x4 x5)
    (fun j => (val_main_v91_apply (F := Ideal) j).trans (val_main_cst_20_apply _))
    (fun r w => funext fun a => match a with | ⟨0, _⟩ => rfl | ⟨1, _⟩ => rfl | ⟨2, _⟩ => rfl)
    (fun r k => funext fun a => match a with | ⟨0, _⟩ => rfl | ⟨1, _⟩ => rfl | ⟨2, _⟩ => rfl | ⟨3, _⟩ => rfl)
    (round2_apply x0 x1 x2 x3 x4 x5 i t) r w

/-- Third round, columns: the plan after three rounds. -/
theorem round3_apply (r : Fin 37) (w : Fin 51) :
    val_main_v103 (F := Ideal) x0 x1 x2 x3 x4 x5 (ix4 i t r w)
      = Spec.round (Spec.rowMarg (msk x4 x5 i t)) (Spec.colMarg (msk x4 x5 i t)) (Spec.round (Spec.rowMarg (msk x4 x5 i t)) (Spec.colMarg (msk x4 x5 i t)) (Spec.round (Spec.rowMarg (msk x4 x5 i t)) (Spec.colMarg (msk x4 x5 i t)) (Spec.plan0 (slc x0 x1 x2 x3 i t) (msk x4 x5 i t)))) r w :=
  colHalf x4 x5 i t (P := val_main_v96 (F := Ideal) x0 x1 x2 x3 x4 x5) (Q := val_main_v103 (F := Ideal) x0 x1 x2 x3 x4 x5) (B2 := val_main_v102 (F := Ideal) x0 x1 x2 x3 x4 x5) (B1 := val_main_v101 (F := Ideal) x0 x1 x2 x3 x4 x5)
    (D := val_main_v100 (F := Ideal) x0 x1 x2 x3 x4 x5) (A := val_main_v99 (F := Ideal) x0 x1 x2 x3 x4 x5) (S := val_main_v97 (F := Ideal) x0 x1 x2 x3 x4 x5) (E := val_main_v98 (F := Ideal))
    (g2 := idx_main_v102) (g1 := idx_main_v101) (gs := idx_main_v97)
    (val_main_v103_apply (F := Ideal) x0 x1 x2 x3 x4 x5) (val_main_v102_apply (F := Ideal) x0 x1 x2 x3 x4 x5) (val_main_v101_apply (F := Ideal) x0 x1 x2 x3 x4 x5) (val_main_v100_apply (F := Ideal) x0 x1 x2 x3 x4 x5) (val_main_v99_apply (F := Ideal) x0 x1 x2 x3 x4 x5) (val_main_v97_apply x0 x1 x2 x3 x4 x5)
    (fun j => (val_main_v98_apply (F := Ideal) j).trans (val_main_cst_22_apply _))
    (fun r w => funext fun a => match a with | ⟨0, _⟩ => rfl | ⟨1, _⟩ => rfl | ⟨2, _⟩ => rfl)
    (fun w k => funext fun a => match a with | ⟨0, _⟩ => rfl | ⟨1, _⟩ => rfl | ⟨2, _⟩ => rfl | ⟨3, _⟩ => rfl)
    (rows3_apply x0 x1 x2 x3 x4 x5 i t) r w

end

/-- Entry (i, t) of the reference's result is the score of the (i, t) slice of its similarities under the product mask. -/
theorem core_apply (x0 : (⟨S128x1024, .f32⟩ : BufTy).Contents (Elt Ideal)) (x1 : (⟨S128x36x1024, .f32⟩ : BufTy).Contents (Elt Ideal)) (x2 : (⟨S128x1024, .f32⟩ : BufTy).Contents (Elt Ideal)) (x3 : (⟨S128x50x1024, .f32⟩ : BufTy).Contents (Elt Ideal)) (x4 x5 : (⟨S128, .i32⟩ : BufTy).Contents (Elt Ideal))
    (i t : Fin 128) :
    val_main_v107 (F := Ideal) x0 x1 x2 x3 x4 x5 (ix2 i t)
      = Spec.core (a := 37) (b := 51) (fun r w => val_main_v15 (F := Ideal) x0 x1 x2 x3 (ix4 i t r w)) (fun (r : Fin 37) (w : Fin 51) => Spec.lenMask (x4 (ix1 i)) r.val * Spec.lenMask (x5 (ix1 t)) w.val) := by
  unfold val_main_v107
  simp only [Host.reduceAdd, Ideal.hostReduceAdd_def]
  rw [Ideal.hostReduceAdd_last2]
  refine (congrArg (· + _) (?_ : _ = (0 : EReal))).trans ((zero_add _).trans ?_)
  · exact Ideal.ofBits_zero_f32
  · unfold Spec.core
    refine Finset.sum_congr rfl fun r _ => Finset.sum_congr rfl fun w _ => ?_
    show val_main_v106 (F := Ideal) x0 x1 x2 x3 x4 x5 (ix4 i t r w) = _
    rw [val_main_v106_apply, val_main_v104_apply, val_main_v105_apply, maskF_apply, round3_apply]
    rfl

end Cert.ReferenceIdeal.RefCore

end
-- ==== Proof.RefTokens.lean ====
/-
  The reference's normalised token rows and its similarity array, read at an index.

  The reference forms, for all 128 images at once, the 37 token rows (class token, then the region tokens shifted
  by ε) divided by their Euclidean lengths, likewise the captions' 51 rows, and the array of all inner products.
  At an index each is the per-item function of the specification.
-/
import proofs.«110340_j62466004353037_1_alg».proof.Proof.RefReadCopy
import proofs.«110340_j62466004353037_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefTokens

open Cert.ReferenceIdeal Cert.ReferenceIdeal.Gen Cert.ReferenceIdeal.ReadCopy Idealize.ShloMosaic Idealize.ShloMosaic.ValueIdx Idealize.SL.Sem

/-- The images' token rows before normalisation: the class token at row 0, a region token plus ε after it. -/
theorem v5_apply (x0 : (⟨S128x1024, .f32⟩ : BufTy).Contents (Elt Ideal)) (x1 : (⟨S128x36x1024, .f32⟩ : BufTy).Contents (Elt Ideal)) (i : Fin 128) (r : Fin 37) (d : Fin 1024) :
    val_main_v5 (F := Ideal) x0 x1 (ix3 i r d) = Spec.toks (n := 36) (fun d => x0 (ix2 i d)) (fun k d => x1 (ix3 i k d)) r d := by
  unfold val_main_v5 Spec.toks
  by_cases h : r.val = 0
  · rw [dif_pos h]
    refine (concatenate_pair_apply_left (t := S128x37x1024) (s₁ := S128x1x1024) (s₂ := S128x36x1024) 1 _ _ _ (ix3 i r d) rfl
      (ix3 i (0 : Fin 1) d) ?_).trans ?_
    · intro b
      match b with
      | ⟨0, _⟩ => rfl
      | ⟨1, _⟩ => show 0 = r.val; omega
      | ⟨2, _⟩ => rfl
    · rw [val_main_v4_apply]
      exact congrArg x0 (funext fun a => match a with | ⟨0, _⟩ => rfl | ⟨1, _⟩ => rfl)
  · rw [dif_neg h]
    refine (concatenate_pair_apply_right (t := S128x37x1024) (s₁ := S128x1x1024) (s₂ := S128x36x1024) 1 _ _ _ (ix3 i r d) rfl rfl
      (ix3 i (⟨r.val - 1, by have := r.isLt; omega⟩ : Fin 36) d) ?_ ?_).trans ?_
    · intro b hb
      match b, hb with
      | ⟨0, _⟩, _ => rfl
      | ⟨1, _⟩, hb => exact absurd rfl hb
      | ⟨2, _⟩, _ => rfl
    · show r.val - 1 + 1 = r.val
      omega
    · rw [val_main_v1_apply, val_main_v0_apply, val_main_cst_apply]
      rfl

/-- The captions' token rows before normalisation: the class token at row 0, a word token plus ε after it. -/
theorem v7_apply (x2 : (⟨S128x1024, .f32⟩ : BufTy).Contents (Elt Ideal)) (x3 : (⟨S128x50x1024, .f32⟩ : BufTy).Contents (Elt Ideal)) (t : Fin 128) (w : Fin 51) (d : Fin 1024) :
    val_main_v7 (F := Ideal) x2 x3 (ix3 t w d) = Spec.toks (n := 50) (fun d => x2 (ix2 t d)) (fun k d => x3 (ix3 t k d)) w d := by
  unfold val_main_v7 Spec.toks
  by_cases h : w.val = 0
  · rw [dif_pos h]
    refine (concatenate_pair_apply_left (t := S128x51x1024) (s₁ := S128x1x1024) (s₂ := S128x50x1024) 1 _ _ _ (ix3 t w d) rfl
      (ix3 t (0 : Fin 1) d) ?_).trans ?_
    · intro b
      match b with
      | ⟨0, _⟩ => rfl
      | ⟨1, _⟩ => show 0 = w.val; omega
      | ⟨2, _⟩ => rfl
    · rw [val_main_v6_apply]
      exact congrArg x2 (funext fun a => match a with | ⟨0, _⟩ => rfl | ⟨1, _⟩ => rfl)
  · rw [dif_neg h]
    refine (concatenate_pair_apply_right (t := S128x51x1024) (s₁ := S128x1x1024) (s₂ := S128x50x1024) 1 _ _ _ (ix3 t w d) rfl rfl
      (ix3 t (⟨w.val - 1, by have := w.isLt; omega⟩ : Fin 50) d) ?_ ?_).trans ?_
    · intro b hb
      match b, hb with
      | ⟨0, _⟩, _ => rfl
      | ⟨1, _⟩, hb => exact absurd rfl hb
      | ⟨2, _⟩, _ => rfl
    · show w.val - 1 + 1 = w.val
      omega
    · rw [val_main_v3_apply, val_main_v2_apply, val_main_cst_0_apply]
      rfl

/-- The images' normalised rows. -/
theorem imgs_apply (x0 : (⟨S128x1024, .f32⟩ : BufTy).Contents (Elt Ideal)) (x1 : (⟨S128x36x1024, .f32⟩ : BufTy).Contents (Elt Ideal)) (i : Fin 128) (r : Fin 37) (d : Fin 1024) :
    val_main_v10 (F := Ideal) x0 x1 (ix3 i r d) = Spec.unit (Spec.toks (n := 36) (fun d => x0 (ix2 i d)) (fun k d => x1 (ix3 i k d))) r d := by
  rw [val_main_v10_apply, val_main_v9_apply, val_main_v8_apply, val_main_call0_v2_apply, val_main_call0_v1_apply,
    val_main_call0_cst_apply]
  have e : ∀ k : Fin 1024, idx_main_call0_v1 (idx_main_call0_v2 (idx_main_v9 (ix3 i r d))) k = ix3 i r k := fun k =>
    funext fun a => match a with | ⟨0, _⟩ => rfl | ⟨1, _⟩ => rfl | ⟨2, _⟩ => rfl
  simp only [val_main_call0_v0_apply, e, v5_apply]
  unfold Spec.unit
  show Ideal.div _ (Ideal.sqrt (Ideal.ofBits .f32 0x00000000#32 + _)) = _
  rw [Ideal.ofBits_zero_f32, zero_add]
  rfl

/-- The captions' normalised rows. -/
theorem caps_apply (x2 : (⟨S128x1024, .f32⟩ : BufTy).Contents (Elt Ideal)) (x3 : (⟨S128x50x1024, .f32⟩ : BufTy).Contents (Elt Ideal)) (t : Fin 128) (w : Fin 51) (d : Fin 1024) :
    val_main_v13 (F := Ideal) x2 x3 (ix3 t w d) = Spec.unit (Spec.toks (n := 50) (fun d => x2 (ix2 t d)) (fun k d => x3 (ix3 t k d))) w d := by
  rw [val_main_v13_apply, val_main_v12_apply, val_main_v11_apply, val_main_call1_v2_apply, val_main_call1_v1_apply,
    val_main_call1_cst_apply]
  have e : ∀ k : Fin 1024, idx_main_call1_v1 (idx_main_call1_v2 (idx_main_v12 (ix3 t w d))) k = ix3 t w k := fun k =>
    funext fun a => match a with | ⟨0, _⟩ => rfl | ⟨1, _⟩ => rfl | ⟨2, _⟩ => rfl
  simp only [val_main_call1_v0_apply, e, v7_apply]
  unfold Spec.unit
  show Ideal.div _ (Ideal.sqrt (Ideal.ofBits .f32 0x00000000#32 + _)) = _
  rw [Ideal.ofBits_zero_f32, zero_add]
  rfl

/-- The similarity array: entry (i, t, r, w) is the inner product of row r of image i with row w of caption t. -/
theorem sims_apply (x0 : (⟨S128x1024, .f32⟩ : BufTy).Contents (Elt Ideal)) (x1 : (⟨S128x36x1024, .f32⟩ : BufTy).Contents (Elt Ideal)) (x2 : (⟨S128x1024, .f32⟩ : BufTy).Contents (Elt Ideal)) (x3 : (⟨S128x50x1024, .f32⟩ : BufTy).Contents (Elt Ideal))
    (i t : Fin 128) (r : Fin 37) (w : Fin 51) :
    val_main_v15 (F := Ideal) x0 x1 x2 x3 (ix4 i t r w)
      = Spec.sims (Spec.unit (Spec.toks (n := 36) (fun d => x0 (ix2 i d)) (fun k d => x1 (ix3 i k d))))
          (Spec.unit (Spec.toks (n := 50) (fun d => x2 (ix2 t d)) (fun k d => x3 (ix3 t k d)))) r w := by
  rw [val_main_v15_apply, val_main_v14_apply]
  unfold Spec.sims
  refine Finset.sum_congr rfl fun k _ => ?_
  have el : lidx_main_v14 (idx_main_v15 (ix4 i t r w)) k = ix3 t w k :=
    funext fun a => match a with | ⟨0, _⟩ => rfl | ⟨1, _⟩ => rfl | ⟨2, _⟩ => rfl
  have er : ridx_main_v14 (idx_main_v15 (ix4 i t r w)) k = ix3 i r k :=
    funext fun a => match a with | ⟨0, _⟩ => rfl | ⟨1, _⟩ => rfl | ⟨2, _⟩ => rfl
  rw [el, er, caps_apply, imgs_apply]
  exact mul_comm _ _

end Cert.ReferenceIdeal.RefTokens

end
-- ==== Proof.RefValue.lean ====
/-
  The reference's result array is the array of scores.

  Entry (i, t) of the result is the score of the (i, t) slice of the similarity array under the product mask, and
  that slice is the matrix of inner products of the normalised rows of image i and caption t: together,
  `Spec.pair` of the pair's data, which is what `Spec.scores` holds at (i, t).
-/
import proofs.«110340_j62466004353037_1_alg».proof.Proof.RefCore
import proofs.«110340_j62466004353037_1_alg».proof.Proof.RefTokens

noncomputable section

namespace Cert.ReferenceIdeal.RefValue

open Cert.ReferenceIdeal Cert.ReferenceIdeal.Gen Cert.ReferenceIdeal.ReadCopy Idealize.ShloMosaic Idealize.ShloMosaic.ValueIdx Idealize.SL.Sem

/-- The last stage of the reference is the array of scores of its arguments. -/
theorem ref_value (x0 : (⟨S128x1024, .f32⟩ : BufTy).Contents (Elt Ideal)) (x1 : (⟨S128x36x1024, .f32⟩ : BufTy).Contents (Elt Ideal)) (x2 : (⟨S128x1024, .f32⟩ : BufTy).Contents (Elt Ideal)) (x3 : (⟨S128x50x1024, .f32⟩ : BufTy).Contents (Elt Ideal)) (x4 x5 : (⟨S128, .i32⟩ : BufTy).Contents (Elt Ideal)) :
    val_main_v107 (F := Ideal) x0 x1 x2 x3 x4 x5 = Spec.scores x0 x1 x2 x3 x4 x5 := by
  funext idx
  obtain ⟨i, t, rfl⟩ : ∃ (i t : Fin 128), idx = ix2 i t := ⟨idx 0, idx 1, eq_ix2 idx⟩
  rw [RefCore.core_apply]
  show _ = Spec.pairAt x0 x1 x2 x3 x4 x5 i t
  unfold Spec.pairAt Spec.pair
  congr 1
  funext r w
  exact RefTokens.sims_apply x0 x1 x2 x3 i t r w

end Cert.ReferenceIdeal.RefValue

end
-- ==== Proof.lean ====
/-
  The certificate: a tiled optimal-transport similarity kernel against its array-at-a-time reference.

  Both programs take 128 images (a class token and 36 region tokens each) and 128 captions (a class token and 50
  word tokens each) with their lengths, and return the 128 × 128 array of scores. The score of a pair depends on
  that pair's data alone (Proof/Spec.lean): normalise the token rows, take the 37 × 51 matrix of inner products,
  build the masked Gibbs kernel, normalise it, rescale rows and columns three times towards the uniform marginals
  on live rows and columns, and sum similarity × plan over live entries.

  The kernel computes this tile by tile: at each of 8 grid points it holds 16 images and all captions and fills
  eight 16 × 16 tiles, each by one matrix product and the plan's arithmetic on a 16 × 16 × 37 × 51 array
  (Proof/Chunk.lean writes the tile once with its offset as a parameter; Proof/ScoreAt, SimsMaskAt, UnitAt and
  TileAt read it at a pair; Proof/KernelValue lays the tiles and blocks out over the whole array). The reference
  computes every pair at once on 128 × 128 × 37 × 51 arrays with a boolean mask (Proof/RefTokens, RefMask, RefCore,
  RefValue read its stages at a pair). On the extended reals both are the same function of the pair's data: the
  two differ only in the order of the factors of each product in the inner products, in writing -x as 0 - x, and
  in keeping the mask as a one-bit word or as the number 0 or 1. No law used needs the data to be finite.

  The three frames are the generated ones (the reference's is its run with the result dropped), and the kernel's
  idealisation rewrote nothing.
-/
import proofs.«110340_j62466004353037_1_alg».proof.Defs
import proofs.«110340_j62466004353037_1_alg».proof.Proof.Gen.Kernel
import proofs.«110340_j62466004353037_1_alg».proof.Proof.Gen.Kernel.Frame
import proofs.«110340_j62466004353037_1_alg».proof.Proof.Gen.KernelIdeal
import proofs.«110340_j62466004353037_1_alg».proof.Proof.Gen.KernelIdeal.Frame
import proofs.«110340_j62466004353037_1_alg».proof.Proof.Gen.KernelIdeal.Value
import proofs.«110340_j62466004353037_1_alg».proof.Proof.Gen.ReferenceIdeal
import proofs.«110340_j62466004353037_1_alg».proof.Proof.Gen.Pre_finite_inputs
import proofs.«110340_j62466004353037_1_alg».proof.Proof.KernelValue
import proofs.«110340_j62466004353037_1_alg».proof.Proof.RefRun
import proofs.«110340_j62466004353037_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- The idealisation rewrote nothing. -/
theorem preserves : Cert.preserves_Kernel_KernelIdeal := trivial

/-- Both runs end with the result array at the array of scores of the (agreeing) arguments. -/
theorem algebraic : Cert.algebraic_KernelIdeal_ReferenceIdeal := by
  intro m ρ m' ρ' _ hagree
  refine ⟨fun c => Cert.Spec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KernelValue.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.RefRun.res_eq_val, Cert.ReferenceIdeal.RefValue.ref_value,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
